-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S1024x1000 : Shape := ⟨2, ![1024, 1000]⟩
abbrev S500000x4 : Shape := ⟨2, ![500000, 4]⟩
abbrev S128x1000 : Shape := ⟨2, ![128, 1000]⟩
abbrev S128 : Shape := ⟨1, ![128]⟩
abbrev S32x128 : Shape := ⟨2, ![32, 128]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩
abbrev S500000x3 : Shape := ⟨2, ![500000, 3]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S1024x1000 : S_.BroadcastsInDim S1024x1000 (![] : Fin 0 → Fin S1024x1000.rank)
  reducesTo_S1024x1000_S_d0_1 : S1024x1000.ReducesTo [0, 1] S_
  bcast_S_S128x1000 : S_.BroadcastsInDim S128x1000 (![] : Fin 0 → Fin S128x1000.rank)
  reducesTo_S128x1000_S_d0_1 : S128x1000.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  slices_S500000x4_S500000x3_0_0 : S500000x4.Slices ![0, 0] S500000x3
  bcast_S_S500000x3 : S_.BroadcastsInDim S500000x3 (![] : Fin 0 → Fin S500000x3.rank)
  reducesTo_S500000x3_S_d0_1 : S500000x3.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg2 : IVec S500000x4 32) (main_arg12 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S500000x3 32 := (extractStridedSlice S500000x3 ![0, 0] · slices_S500000x4_S500000x3_0_0) main_arg2
  let main_c_22 : IVec S_ 32 := constantI S_ 32 0#32
  let main_v60 : IVec S500000x3 32 := broadcastInDim S500000x3 ![] bcast_S_S500000x3 main_c_22
  let main_v61 : IVec S500000x3 1 := cmpi .sge main_v59 main_v60
  let main_c_23 : IVec S_ 1 := constantI S_ 1 1#1
  let main_v62 : IVec S_ 1 := (fun x v => Host.reduce IntOp.andi x v reducesTo_S500000x3_S_d0_1 h_S_) main_v61 main_c_23
  let main_v63 : IVec S_ 1 := andi main_v58 main_v62
  let main_v64 : IVec S500000x3 32 := (extractStridedSlice S500000x3 ![0, 0] · slices_S500000x4_S500000x3_0_0) main_arg2
  let main_c_24 : IVec S_ 32 := constantI S_ 32 4096#32
  let main_v65 : IVec S500000x3 32 := broadcastInDim S500000x3 ![] bcast_S_S500000x3 main_c_24
  let main_v66 : IVec S500000x3 1 := cmpi .slt main_v64 main_v65
  let main_c_25 : IVec S_ 1 := constantI S_ 1 1#1
  let main_v67 : IVec S_ 1 := (fun x v => Host.reduce IntOp.andi x v reducesTo_S500000x3_S_d0_1 h_S_) main_v66 main_c_25
  fn_part4 (F := F) main_v63 main_v67

def fn_part2 {F : FTy → Type} [FloatOps F] (main_arg2 : IVec S500000x4 32) (main_arg8 : FVec F S32 .f32) (main_arg9 : FVec F S32x32 .f32) (main_arg10 : FVec F S32 .f32) (main_arg11 : FVec F S1x32 .f32) (main_arg12 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1x32 .f32 := Host.absf main_arg11
  let main_cst_18 : FVec F S_ .f32 := constant S_ .f32 0x7F800000#32
  let main_v50 : FVec F S1x32 .f32 := broadcastInDim S1x32 ![] bcast_S_S1x32 main_cst_18
  fn_part3 (F := F) main_arg2 main_arg12 main_v48 main_v49 main_v50

def fn_part1 {F : FTy → Type} [FloatOps F] (main_arg2 : IVec S500000x4 32) (main_arg5 : FVec F S32x128 .f32) (main_arg6 : FVec F S32 .f32) (main_arg7 : FVec F S32x32 .f32) (main_arg8 : FVec F S32 .f32) (main_arg9 : FVec F S32x32 .f32) (main_arg10 : FVec F S32 .f32) (main_arg11 : FVec F S1x32 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S4096x128 .f32) (main_arg1 : FVec F S1024x1000 .f32) (main_arg2 : IVec S500000x4 32) (main_arg3 : FVec F S128x1000 .f32) (main_arg4 : FVec F S128 .f32) (main_arg5 : FVec F S32x128 .f32) (main_arg6 : FVec F S32 .f32) (main_arg7 : FVec F S32x32 .f32) (main_arg8 : FVec F S32 .f32) (main_arg9 : FVec F S32x32 .f32) (main_arg10 : FVec F S32 .f32) (main_arg11 : FVec F S1x32 .f32) (main_arg12 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S1024x1000 .f32 := Host.absf main_arg1
  let main_cst_0 : FVec F S_ .f32 := constant S_ .f32 0x7F800000#32
  let main_v5 : FVec F S1024x1000 .f32 := broadcastInDim S1024x1000 ![] bcast_S_S1024x1000 main_cst_0
  let main_v6 : IVec S1024x1000 1 := cmpf .olt main_v4 main_v5
  let main_c_1 : IVec S_ 1 := constantI S_ 1 1#1
  let main_v7 : IVec S_ 1 := (fun x v => Host.reduce IntOp.andi x v reducesTo_S1024x1000_S_d0_1 h_S_) main_v6 main_c_1
  let main_v8 : IVec S_ 1 := andi main_v3 main_v7
  let main_v9 : FVec F S128x1000 .f32 := Host.absf main_arg3
  let main_cst_2 : FVec F S_ .f32 := constant S_ .f32 0x7F800000#32
  let main_v10 : FVec F S128x1000 .f32 := broadcastInDim S128x1000 ![] bcast_S_S128x1000 main_cst_2
  let main_v11 : IVec S128x1000 1 := cmpf .olt main_v9 main_v10
  let main_c_3 : IVec S_ 1 := constantI S_ 1 1#1
  let main_v12 : IVec S_ 1 := (fun x v => Host.reduce IntOp.andi x v reducesTo_S128x1000_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_v13 main_v16
-- ==== Kernel.lean ====
abbrev S4096x128 : Shape := ⟨2, ![4096, 128]⟩
abbrev S1024x1000 : Shape := ⟨2, ![1024, 1000]⟩
abbrev S500000x4 : Shape := ⟨2, ![500000, 4]⟩
abbrev S128x1000 : Shape := ⟨2, ![128, 1000]⟩
abbrev S128 : Shape := ⟨1, ![128]⟩
abbrev S32x128 : Shape := ⟨2, ![32, 128]⟩
abbrev S32 : Shape := ⟨1, ![32]⟩
abbrev S32x32 : Shape := ⟨2, ![32, 32]⟩
abbrev S1x32 : Shape := ⟨2, ![1, 32]⟩
abbrev S1 : Shape := ⟨1, ![1]⟩
abbrev S500000x1 : Shape := ⟨2, ![500000, 1]⟩
abbrev S500000 : Shape := ⟨1, ![500000]⟩
abbrev S500000x3 : Shape := ⟨2, ![500000, 3]⟩
abbrev S_ : Shape := ⟨0, ![]⟩
abbrev S500000x128 : Shape := ⟨2, ![500000, 128]⟩
abbrev S503808x128 : Shape := ⟨2, ![503808, 128]⟩
abbrev S128x32 : Shape := ⟨2, ![128, 32]⟩
abbrev S32x1 : Shape := ⟨2, ![32, 1]⟩
abbrev S1x1 : Shape := ⟨2, ![1, 1]⟩
abbrev S503808x1 : Shape := ⟨2, ![503808, 1]⟩
abbrev S4096x1 : Shape := ⟨2, ![4096, 1]⟩
abbrev S4096x32 : Shape := ⟨2, ![4096, 32]⟩

abbrev nBuf : Space → Nat
  | .hbm => 80
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S1024x1000, .f32⟩
  | .hbm, ⟨2, _⟩ => ⟨S500000x4, .i32⟩
  | .hbm, ⟨3, _⟩ => ⟨S128x1000, .f32⟩
  | .hbm, ⟨4, _⟩ => ⟨S128, .f32⟩
  | .hbm, ⟨5, _⟩ => ⟨S32x128, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S500000x1, .i32⟩
  | .hbm, ⟨14, _⟩ => ⟨S500000, .i32⟩
  | .hbm, ⟨15, _⟩ => ⟨S500000x3, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S500000x3, .i32⟩
  | .hbm, ⟨20, _⟩ => ⟨S500000x3, .i32⟩
  | .hbm, ⟨21, _⟩ => ⟨S_, .i32⟩
  | .hbm, ⟨22, _⟩ => ⟨S500000x3, .i32⟩
  | .hbm, ⟨23, _⟩ => ⟨S500000x3, .i32⟩
  | .hbm, ⟨24, _⟩ => ⟨S500000x1, .i32⟩
  | .hbm, ⟨25, _⟩ => ⟨S500000, .i32⟩
  | .hbm, ⟨26, _⟩ => ⟨S500000x1, .i32⟩
  | .hbm, ⟨27, _⟩ => ⟨S500000, .i32⟩
  | .hbm, ⟨28, _⟩ => ⟨S500000x1, .i32⟩
  | .hbm, ⟨29, _⟩ => ⟨S500000, .i32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x128, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x128, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x128, .f32⟩
  | .hbm, ⟨57, _⟩ => ⟨S_, .i32⟩
  | .hbm, ⟨58, _⟩ => ⟨S_, .f32⟩
  | .hbm, ⟨59, _⟩ => ⟨S503808x128, .f32⟩
  | .hbm, ⟨60, _⟩ => ⟨S_, .i32⟩
  | .hbm, ⟨61, _⟩ => ⟨S_, .f32⟩
  | .hbm, ⟨62, _⟩ => ⟨S503808x128, .f32⟩
  | .hbm, ⟨63, _⟩ => ⟨S_, .i32⟩
  | .hbm, ⟨64, _⟩ => ⟨S_, .f32⟩
  | .hbm, ⟨65, _⟩ => ⟨S503808x128, .f32⟩
  | .hbm, ⟨66, _⟩ => ⟨S128x32, .f32⟩
  | .hbm, ⟨67, _⟩ => ⟨S128x32, .bf16⟩
  | .hbm, ⟨68, _⟩ => ⟨S32x32, .f32⟩
  | .hbm, ⟨69, _⟩ => ⟨S32x32, .bf16⟩
  | .hbm, ⟨70, _⟩ => ⟨S32x32, .f32⟩
  | .hbm, ⟨71, _⟩ => ⟨S32x32, .bf16⟩
  | .hbm, ⟨72, _⟩ => ⟨S32x1, .f32⟩
  | .hbm, ⟨73, _⟩ => ⟨S32x1, .bf16⟩
  | .hbm, ⟨74, _⟩ => ⟨S1x32, .f32⟩
  | .hbm, ⟨75, _⟩ => ⟨S1x32, .f32⟩
  | .hbm, ⟨76, _⟩ => ⟨S1x32, .f32⟩
  | .hbm, ⟨77, _⟩ => ⟨S1x1, .f32⟩
  | .hbm, ⟨78, _⟩ => ⟨S503808x1, .f32⟩
  | .hbm, ⟨79, _⟩ => ⟨S500000x1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x32, .bf16⟩
  | .local _ .vmem, ⟨7, _⟩ => ⟨S1x32, .f32⟩
  | .local _ .vmem, ⟨8, _⟩ => ⟨S32x32, .bf16⟩
  | .local _ .vmem, ⟨9, _⟩ => ⟨S1x32, .f32⟩
  | .local _ .vmem, ⟨10, _⟩ => ⟨S32x32, .bf16⟩
  | .local _ .vmem, ⟨11, _⟩ => ⟨S1x32, .f32⟩
  | .local _ .vmem, ⟨12, _⟩ => ⟨S32x1, .bf16⟩
  | .local _ .vmem, ⟨13, _⟩ => ⟨S1x1, .f32⟩
  | .local _ .vmem, ⟨14, _⟩ => ⟨S4096x1, .f32⟩
  | .local _ .vmem, ⟨15, _⟩ => ⟨S4096x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_call1_v0 : Ref sig .tc := ⟨.hbm, 58, rfl⟩
abbrev main_v31 : Ref sig .tc := ⟨.hbm, 59, rfl⟩
abbrev main_c_8 : Ref sig .tc := ⟨.hbm, 60, rfl⟩
abbrev main_call2_v0 : Ref sig .tc := ⟨.hbm, 61, rfl⟩
abbrev main_v32 : Ref sig .tc := ⟨.hbm, 62, rfl⟩
abbrev main_c_9 : Ref sig .tc := ⟨.hbm, 63, rfl⟩
abbrev main_call3_v0 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S500000x4_S500000x1_0_3 : S500000x4.Slices ![0, 3] S500000x1
  shapeCasts_S500000x1_S500000 : S500000x1.ShapeCasts S500000
  slices_S500000x4_S500000x3_0_0 : S500000x4.Slices ![0, 0] S500000x3
  bcast_S_S500000x3 : S_.BroadcastsInDim S500000x3 (![] : Fin 0 → Fin S500000x3.rank)
  slices_S500000x3_S500000x1_0_0 : S500000x3.Slices ![0, 0] S500000x1
  slices_S500000x3_S500000x1_0_1 : S500000x3.Slices ![0, 1] S500000x1
  slices_S500000x3_S500000x1_0_2 : S500000x3.Slices ![0, 2] S500000x1
  bcast_S_S500000 : S_.BroadcastsInDim S500000 (![] : Fin 0 → Fin S500000.rank)
  bcast_S500000_S500000x1_0 : S500000.BroadcastsInDim S500000x1 (![0] : Fin 1 → Fin S500000x1.rank)
  pads_S500000x128_S503808x128_038080_000 : S500000x128.Pads (![0, 0] : Fin 2 → Nat) ![3808, 0] ![0, 0] S503808x128
  h_S_ : 0 < S_.numel
  transposes_S32x128_S128x32_1_0 : S32x128.Transposes [1, 0] S128x32
  bitsLt_bf16_f32 : FTy.bits .bf16 < FTy.bits .f32
  transposes_S32x32_S32x32_1_0 : S32x32.Transposes [1, 0] S32x32
  transposes_S1x32_S32x1_1_0 : S1x32.Transposes [1, 0] S32x1
  shapeCasts_S32_S1x32 : S32.ShapeCasts S1x32
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  slices_S503808x1_S500000x1_0_0 : S503808x1.Slices ![0, 0] S500000x1
  gather_S4096x128_S500000x1_S500000x128_1_0_n_n_0_1_1128_wf : GatherDims.WF S4096x128 S500000x1 S500000x128 [1] [0] [] [0] [] 1 ![1, 128]
  dot_S4096x128_S128x32_S4096x32_1_0_0_1_n_n_wf : DotDims.WF S4096x128 S128x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S503808x128.size a
  hwx0_1 : ∀ i : grid0.Coords, EltTy.bits .f32 = 32 ∨ (Rect.block (s := S503808x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S503808x128.size a
  hwx0_2 : ∀ i : grid0.Coords, EltTy.bits .f32 = 32 ∨ (Rect.block (s := S503808x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .bf16 = 32 ∨ (Rect.block (s := S128x32) S128x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .bf16 = 32 ∨ (Rect.block (s := S32x32) S32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .bf16 = 32 ∨ (Rect.block (s := S32x32) S32x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .bf16 = 32 ∨ (Rect.block (s := S32x1) S32x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x1.size a ≤ S503808x1.size a
  hwx0_11 : ∀ i : grid0.Coords, EltTy.bits .f32 = 32 ∨ (Rect.block (s := S503808x1) S4096x1.size (cc0_transform_11 i) (hinb0_11 i)).WholeWords (EltTy.packing .f32)

variable [Facts₀]

def gather_S4096x128_S500000x1_S500000x128_1_0_n_n_0_1_1128 : GatherDims S4096x128 S500000x1 S500000x128 where
  offsetDims := [1]
  collapsedSliceDims := [0]
  operandBatchingDims := []
  startIndicesBatchingDims := []
  startIndexMap := [0]
  indexVectorDim := 1
  sliceSizes := ![1, 128]
  wf := gather_S4096x128_S500000x1_S500000x128_1_0_n_n_0_1_1128_wf
def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_v31) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v45) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v46) S4096x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x128 : Shape := ⟨2, ![4096, 128]⟩
abbrev S1024x1000 : Shape := ⟨2, ![1024, 1000]⟩
abbrev S500000x4 : Shape := ⟨2, ![500000, 4]⟩
abbrev S128x1000 : Shape := ⟨2, ![128, 1000]⟩
abbrev S128 : Shape := ⟨1, ![128]⟩
abbrev S32x128 : Shape := ⟨2, ![32, 128]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1000x128 : Shape := ⟨2, ![1000, 128]⟩
abbrev S1024x128 : Shape := ⟨2, ![1024, 128]⟩
abbrev S1x128 : Shape := ⟨2, ![1, 128]⟩
abbrev S4x500000 : Shape := ⟨2, ![4, 500000]⟩
abbrev S1x500000 : Shape := ⟨2, ![1, 500000]⟩
abbrev S500000 : Shape := ⟨1, ![500000]⟩
abbrev S3x500000 : Shape := ⟨2, ![3, 500000]⟩
abbrev S_ : Shape := ⟨0, ![]⟩
abbrev S500000x1 : Shape := ⟨2, ![500000, 1]⟩
abbrev S500000x128 : Shape := ⟨2, ![500000, 128]⟩
abbrev S128x32 : Shape := ⟨2, ![128, 32]⟩
abbrev S500000x32 : Shape := ⟨2, ![500000, 32]⟩
abbrev S32x1 : Shape := ⟨2, ![32, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x1000, .f32⟩
  | .hbm, ⟨2, _⟩ => ⟨S500000x4, .i32⟩
  | .hbm, ⟨3, _⟩ => ⟨S128x1000, .f32⟩
  | .hbm, ⟨4, _⟩ => ⟨S128, .f32⟩
  | .hbm, ⟨5, _⟩ => ⟨S32x128, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S1000x128, .f32⟩
  | .hbm, ⟨14, _⟩ => ⟨S1024x128, .f32⟩
  | .hbm, ⟨15, _⟩ => ⟨S1x128, .f32⟩
  | .hbm, ⟨16, _⟩ => ⟨S1024x128, .f32⟩
  | .hbm, ⟨17, _⟩ => ⟨S1024x128, .f32⟩
  | .hbm, ⟨18, _⟩ => ⟨S4x500000, .i32⟩
  | .hbm, ⟨19, _⟩ => ⟨S1x500000, .i32⟩
  | .hbm, ⟨20, _⟩ => ⟨S500000, .i32⟩
  | .hbm, ⟨21, _⟩ => ⟨S3x500000, .i32⟩
  | .hbm, ⟨22, _⟩ => ⟨S1x500000, .i32⟩
  | .hbm, ⟨23, _⟩ => ⟨S500000, .i32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S1x500000, .i32⟩
  | .hbm, ⟨34, _⟩ => ⟨S500000, .i32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x128, .f32⟩
  | .hbm, ⟨44, _⟩ => ⟨S1x500000, .i32⟩
  | .hbm, ⟨45, _⟩ => ⟨S500000, .i32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x128, .f32⟩
  | .hbm, ⟨55, _⟩ => ⟨S500000x128, .f32⟩
  | .hbm, ⟨56, _⟩ => ⟨S500000x128, .f32⟩
  | .hbm, ⟨57, _⟩ => ⟨S128x32, .f32⟩
  | .hbm, ⟨58, _⟩ => ⟨S500000x32, .f32⟩
  | .hbm, ⟨59, _⟩ => ⟨S1x32, .f32⟩
  | .hbm, ⟨60, _⟩ => ⟨S500000x32, .f32⟩
  | .hbm, ⟨61, _⟩ => ⟨S500000x32, .f32⟩
  | .hbm, ⟨62, _⟩ => ⟨S_, .f32⟩
  | .hbm, ⟨63, _⟩ => ⟨S500000x32, .f32⟩
  | .hbm, ⟨64, _⟩ => ⟨S500000x32, .f32⟩
  | .hbm, ⟨65, _⟩ => ⟨S32x32, .f32⟩
  | .hbm, ⟨66, _⟩ => ⟨S500000x32, .f32⟩
  | .hbm, ⟨67, _⟩ => ⟨S1x32, .f32⟩
  | .hbm, ⟨68, _⟩ => ⟨S500000x32, .f32⟩
  | .hbm, ⟨69, _⟩ => ⟨S500000x32, .f32⟩
  | .hbm, ⟨70, _⟩ => ⟨S_, .f32⟩
  | .hbm, ⟨71, _⟩ => ⟨S500000x32, .f32⟩
  | .hbm, ⟨72, _⟩ => ⟨S500000x32, .f32⟩
  | .hbm, ⟨73, _⟩ => ⟨S32x32, .f32⟩
  | .hbm, ⟨74, _⟩ => ⟨S500000x32, .f32⟩
  | .hbm, ⟨75, _⟩ => ⟨S1x32, .f32⟩
  | .hbm, ⟨76, _⟩ => ⟨S500000x32, .f32⟩
  | .hbm, ⟨77, _⟩ => ⟨S500000x32, .f32⟩
  | .hbm, ⟨78, _⟩ => ⟨S_, .f32⟩
  | .hbm, ⟨79, _⟩ => ⟨S500000x32, .f32⟩
  | .hbm, ⟨80, _⟩ => ⟨S500000x32, .f32⟩
  | .hbm, ⟨81, _⟩ => ⟨S32x1, .f32⟩
  | .hbm, ⟨82, _⟩ => ⟨S500000x1, .f32⟩
  | .hbm, ⟨83, _⟩ => ⟨S1x1, .f32⟩
  | .hbm, ⟨84, _⟩ => ⟨S500000x1, .f32⟩
  | .hbm, ⟨85, _⟩ => ⟨S500000x1, .f32⟩
  | .hbm, ⟨86, _⟩ => ⟨S500000x1, .f32⟩
  | .hbm, ⟨87, _⟩ => ⟨S500000x1, .f32⟩
  | .hbm, ⟨88, _⟩ => ⟨S_, .f32⟩
  | .hbm, ⟨89, _⟩ => ⟨S500000x1, .f32⟩
  | .hbm, ⟨90, _⟩ => ⟨S500000x1, .f32⟩
  | .hbm, ⟨91, _⟩ => ⟨S_, .f32⟩
  | .hbm, ⟨92, _⟩ => ⟨S500000x1, .f32⟩
  | .hbm, ⟨93, _⟩ => ⟨S500000x1, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_cst : Ref sig .tc := ⟨.hbm, 78, rfl⟩
abbrev main_call2_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst : Ref sig .tc := ⟨.hbm, 88, rfl⟩
abbrev main_v63 : Ref sig .tc := ⟨.hbm, 89, rfl⟩
abbrev main_v64 : Ref sig .tc := ⟨.hbm, 90, rfl⟩
abbrev main_cst_5 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  transposes_S128x1000_S1000x128_1_0 : S128x1000.Transposes [1, 0] S1000x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  transposes_S500000x4_S4x500000_1_0 : S500000x4.Transposes [1, 0] S4x500000
  slices_S4x500000_S1x500000_3_0 : S4x500000.Slices ![3, 0] S1x500000
  shapeCasts_S1x500000_S500000 : S1x500000.ShapeCasts S500000
  slices_S4x500000_S3x500000_0_0 : S4x500000.Slices ![0, 0] S3x500000
  slices_S3x500000_S1x500000_0_0 : S3x500000.Slices ![0, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S3x500000_S1x500000_1_0 : S3x500000.Slices ![1, 0] S1x500000
  slices_S3x500000_S1x500000_2_0 : S3x500000.Slices ![2, 0] S1x500000
  transposes_S32x128_S128x32_1_0 : S32x128.Transposes [1, 0] S128x32
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  dot_S1024x1000_S1000x128_S1024x128_1_0_0_1_n_n_wf : DotDims.WF S1024x1000 S1000x128 S1024x128 [1] [0] [0] [1] [] []
  gather_S4096x128_S500000x1_S500000x128_1_0_n_n_0_1_1128_wf : GatherDims.WF S4096x128 S500000x1 S500000x128 [1] [0] [] [0] [] 1 ![1, 128]
  dot_S500000x128_S128x32_S500000x32_1_0_0_1_n_n_wf : DotDims.WF S500000x128 S128x32 S500000x32 [1] [0] [0] [1] [] []
  dot_S500000x32_S32x32_S500000x32_1_0_0_1_n_n_wf : DotDims.WF S500000x32 S32x32 S500000x32 [1] [0] [0] [1] [] []
  dot_S500000x32_S32x1_S500000x1_1_0_0_1_n_n_wf : DotDims.WF S500000x32 S32x1 S500000x1 [1] [0] [0] [1] [] []

variable [Facts₀]

def dot_S1024x1000_S1000x128_S1024x128_1_0_0_1_n_n : DotDims S1024x1000 S1000x128 S1024x128 where
  lhsContracting := [1]
  rhsContracting := [0]
  lhsNonContracting := [0]
  rhsNonContracting := [1]
  lhsBatch := []
  rhsBatch := []
  wf := dot_S1024x1000_S1000x128_S1024x128_1_0_0_1_n_n_wf
def gather_S4096x128_S500000x1_S500000x128_1_0_n_n_0_1_1128 : GatherDims S4096x128 S500000x1 S500000x128 where
  offsetDims := [1]
  collapsedSliceDims := [0]
  operandBatchingDims := []
  startIndicesBatchingDims := []
  startIndexMap := [0]
  indexVectorDim := 1
  sliceSizes := ![1, 128]
  wf := gather_S4096x128_S500000x1_S500000x128_1_0_n_n_0_1_1128_wf
def dot_S500000x128_S128x32_S500000x32_1_0_0_1_n_n : DotDims S500000x128 S128x32 S500000x32 where
  lhsContracting := [1]
  rhsContracting := [0]
  lhsNonContracting := [0]
  rhsNonContracting := [1]
  lhsBatch := []
  rhsBatch := []
  wf := dot_S500000x128_S128x32_S500000x32_1_0_0_1_n_n_wf
def dot_S500000x32_S32x32_S500000x32_1_0_0_1_n_n : DotDims S500000x32 S32x32 S500000x32 where
  lhsContracting := [1]
  rhsContracting := [0]
  lhsNonContracting := [0]
  rhsNonContracting := [1]
  lhsBatch := []
  rhsBatch := []
  wf := dot_S500000x32_S32x32_S500000x32_1_0_0_1_n_n_wf
def dot_S500000x32_S32x1_S500000x1_1_0_0_1_n_n : DotDims S500000x32 S32x1 S500000x1 where
  lhsContracting := [1]
  rhsContracting := [0]
  lhsNonContracting := [0]
  rhsNonContracting := [1]
  lhsBatch := []
  rhsBatch := []
  wf := dot_S500000x32_S32x1_S500000x1_1_0_0_1_n_n_wf

class Facts : Prop extends Facts₀ where

variable [Facts]
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.EdgeScore.lean ====
/-
  The score of one edge, as both programs compute it.

  An edge `e` carries three row indices into a table of 128-wide feature rows. Its feature row is the product,
  entry by entry, of the three table rows; the score is a four-layer perceptron of that row,
  128 → 32 → 32 → 32 → 1, each hidden layer followed by `max · 0`, and the logistic function at the end:

    score x = logistic (dense (relu ∘ dense (relu ∘ dense (relu ∘ dense x W₁ b₁) W₂ b₂) W₃ b₃) W₄ b₄ 0),
    dense x W b j = (∑ k, x k * W (k, j)) + b j.

  Over the extended reals a change of float format is the identity and a matrix product is the plain sum, so a
  layer computed block by block on 4096 rows with its weights held in a narrower format, and the same layer
  computed once on all rows, read the same at every row. This module states the score and reads one layer at
  a row in each of the two spellings.
-/
import Idealize.ShloMosaic.Lib.Pipeline.Value
import Idealize.ShloMosaic.Lib.ValueIdx
import Idealize.ShloMosaic.Lib.ValueLayout
import Idealize.ShloMosaic.PureOps.Ideal.Laws
import proofs.«426207_j77051713290672_3_alg».proof.Proof.LibRowOps

noncomputable section

namespace Cert.EdgeScore

open Idealize.ShloMosaic Idealize.ShloMosaic.ValueIdx
open scoped BigOperators

/-- The zero of f32, read over the extended reals. -/
abbrev zero32 : EReal := FloatOps.ofBits (F := Ideal) .f32 0x00000000#32

/-- `max x 0`, with the zero spelt as both programs spell it. -/
def relu (x : EReal) : EReal := max x zero32

/-- One affine layer on a row `x`: output `j` is `(∑ k, x k * W (k, j)) + b j`. -/
def dense {K N : ℕ} (x : Fin K → EReal) (W : (⟨2, ![K, N]⟩ : Shape).Idx → EReal) (b : Fin N → EReal) (j : Fin N) : EReal :=
  (∑ k : Fin K, x k * W (ix2 k j)) + b j

/-- The score of a feature row: three hidden layers of width 32 with `relu`, one output, the logistic function. -/
def score (x : Fin 128 → EReal)
    (W1 : (⟨2, ![128, 32]⟩ : Shape).Idx → EReal) (b1 : Fin 32 → EReal)
    (W2 : (⟨2, ![32, 32]⟩ : Shape).Idx → EReal) (b2 : Fin 32 → EReal)
    (W3 : (⟨2, ![32, 32]⟩ : Shape).Idx → EReal) (b3 : Fin 32 → EReal)
    (W4 : (⟨2, ![32, 1]⟩ : Shape).Idx → EReal) (b4 : Fin 1 → EReal) : EReal :=
  Ideal.logistic (dense (fun k => relu (dense (fun j => relu (dense (fun i => relu (dense x W1 b1 i)) W2 b2 j)) W3 b3 k)) W4 b4 0)

/-- The feature row of edge `e`: the product of the three gathered rows, entry by entry. -/
def featureRow {n : ℕ} (g1 g2 g3 : (⟨2, ![n, 128]⟩ : Shape).Idx → EReal) (e : Fin n) (d : Fin 128) : EReal :=
  g1 (ix2 e d) * g2 (ix2 e d) * g3 (ix2 e d)

/-- All scores: a column, one entry per edge. -/
def scores {n : ℕ} (g1 g2 g3 : (⟨2, ![n, 128]⟩ : Shape).Idx → EReal)
    (W1 : (⟨2, ![128, 32]⟩ : Shape).Idx → EReal) (b1 : Fin 32 → EReal)
    (W2 : (⟨2, ![32, 32]⟩ : Shape).Idx → EReal) (b2 : Fin 32 → EReal)
    (W3 : (⟨2, ![32, 32]⟩ : Shape).Idx → EReal) (b3 : Fin 32 → EReal)
    (W4 : (⟨2, ![32, 1]⟩ : Shape).Idx → EReal) (b4 : Fin 1 → EReal) : (⟨2, ![n, 1]⟩ : Shape).Idx → EReal :=
  fun i => score (featureRow g1 g2 g3 (i 0)) W1 b1 W2 b2 W3 b3 W4 b4

theorem scores_apply {n : ℕ} (g1 g2 g3 : (⟨2, ![n, 128]⟩ : Shape).Idx → EReal)
    (W1 : (⟨2, ![128, 32]⟩ : Shape).Idx → EReal) (b1 : Fin 32 → EReal)
    (W2 : (⟨2, ![32, 32]⟩ : Shape).Idx → EReal) (b2 : Fin 32 → EReal)
    (W3 : (⟨2, ![32, 32]⟩ : Shape).Idx → EReal) (b3 : Fin 32 → EReal)
    (W4 : (⟨2, ![32, 1]⟩ : Shape).Idx → EReal) (b4 : Fin 1 → EReal) (e : Fin n) (q : Fin 1) :
    scores g1 g2 g3 W1 b1 W2 b2 W3 b3 W4 b4 (ix2 e q) = score (featureRow g1 g2 g3 e) W1 b1 W2 b2 W3 b3 W4 b4 := rfl

/-! ## One layer read at a row, in the two spellings -/

/-- The block spelling: a product into the zero accumulator of the rows `A` with weights that went through an
    identity reshape, plus a bias block `[1, N]` (through an identity reshape too) broadcast down the rows. -/
theorem blockLayer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (bb : FVec Ideal ⟨2, ![1, N]⟩ .f32)
    (hW : (⟨2, ![K, N]⟩ : Shape).ShapeCasts ⟨2, ![K, N]⟩) (hbb : (⟨2, ![1, N]⟩ : Shape).ShapeCasts ⟨2, ![1, N]⟩)
    (hb : (⟨2, ![1, N]⟩ : Shape).Broadcasts ⟨2, ![n, N]⟩)
    (p : Fin n) (j : Fin N) (x : Fin K → EReal) (hx : ∀ k, A (ix2 p k) = x k) :
    addf (matmul d none A (shapeCast ⟨2, ![K, N]⟩ W hW) (constant ⟨2, ![n, N]⟩ .f32 0x00000000#32))
        (broadcastTo ⟨2, ![n, N]⟩ (shapeCast ⟨2, ![1, N]⟩ bb hbb) hb) (ix2 p j)
      = dense x W (fun j => bb (ix2 0 j)) j := by
  show matmul d none A (shapeCast ⟨2, ![K, N]⟩ W hW) (constant ⟨2, ![n, N]⟩ .f32 0x00000000#32) (ix2 p j)
      + broadcastTo ⟨2, ![n, N]⟩ (shapeCast ⟨2, ![1, N]⟩ bb hbb) hb (ix2 p j) = _
  rw [Cert.LibRowOps.matmul_plain_apply d hd, broadcastTo_1b_ab_apply _ hb p j, shapeCast_self, shapeCast_self]
  unfold dense
  exact congrArg (· + bb (ix2 0 j)) (Finset.sum_congr rfl fun k _ => by rw [hx k])

/-- The whole-array spelling: the host's product of all rows with the weights, plus a bias `[N]` broadcast to a row
    and then down the rows. -/
theorem hostLayer_apply {n K N : ℕ} (d : DotDims ⟨2, ![n, K]⟩ ⟨2, ![K, N]⟩ ⟨2, ![n, N]⟩) (hd : d = DotDims.plain n K N)
    (A : FVec Ideal ⟨2, ![n, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![n, N]⟩ (![0, 1] : Fin 2 → Fin 2))
    (p : Fin n) (j : Fin N) (x : Fin K → EReal) (hx : ∀ k, A (ix2 p k) = x k) :
    addf (Host.dotGeneral d none A W)
        (broadcastInDim ⟨2, ![n, N]⟩ ![0, 1] h2 (broadcastInDim ⟨2, ![1, N]⟩ ![1] h1 b)) (ix2 p j)
      = dense x W (fun j => b (ix1 j)) j := by
  show Host.dotGeneral d none A W (ix2 p j)
      + broadcastInDim ⟨2, ![n, N]⟩ ![0, 1] h2 (broadcastInDim ⟨2, ![1, N]⟩ ![1] h1 b) (ix2 p j) = _
  rw [Cert.LibRowOps.dotGeneral_plain_apply d hd]
  have hrow : broadcastInDim ⟨2, ![n, N]⟩ ![0, 1] h2 (broadcastInDim ⟨2, ![1, N]⟩ ![1] h1 b) (ix2 p j) = b (ix1 j) := by
    rw [broadcastInDim_apply _ h2 _ (ix2 p j) (ix2 0 j) (fun a => by
      match a with
      | ⟨0, _⟩ => show 0 = if (1 : ℕ) = 1 then 0 else p.val; rw [if_pos rfl]
      | ⟨1, _⟩ =>
        show j.val = if N = 1 then 0 else j.val
        split
        · next h => have := j.isLt; omega
        · rfl)]
    exact broadcastInDim_apply _ h1 b (ix2 0 j) (ix1 j) (fun a => by
      match a with
      | ⟨0, _⟩ =>
        show j.val = if N = 1 then 0 else j.val
        split
        · next h => have := j.isLt; omega
        · rfl)
  rw [hrow]
  unfold dense
  exact congrArg (· + b (ix1 j)) (Finset.sum_congr rfl fun k _ => by rw [hx k])

end Cert.EdgeScore

end
-- ==== Proof.BlockScore.lean ====
/-
  What the kernel body stores, read at a row.

  At one grid point the body holds three `[4096, 128]` blocks of gathered rows, the four weight matrices and the
  four bias rows. It multiplies the three blocks entry by entry, runs the four affine layers as products into a
  zero accumulator plus a bias row broadcast down the block, clamps the three hidden layers at zero, and stores
  the logistic function of the last layer. Over the extended reals the narrowing of a product's operands is the
  identity, so row `r` of what it stores is the score (Proof/EdgeScore.lean) of row `r` of the three blocks.
-/
import proofs.«426207_j77051713290672_3_alg».proof.Proof.Gen.KernelIdeal.Skeleton
import proofs.«426207_j77051713290672_3_alg».proof.Proof.EdgeScore

noncomputable section

namespace Cert.KernelIdeal.BlockScore

open Cert.KernelIdeal Cert.KernelIdeal.Gen Idealize.ShloMosaic Idealize.ShloMosaic.ValueIdx Cert.EdgeScore
open scoped BigOperators

/-- A hidden layer's output, clamped at zero and narrowed for the next product, read at `(p, j)`. -/
theorem clamp_apply {n N : ℕ} (X : FVec Ideal ⟨2, ![n, N]⟩ .f32) (p : Fin n) (j : Fin N) :
    truncf .bf16 (maximumf X (broadcast ⟨2, ![n, N]⟩ (Scalar.ofBits .f32 0x00000000#32))) (by decide) (ix2 p j)
      = relu (X (ix2 p j)) := rfl

/-- The three hidden layers of the body: entry `(r, k)` of the third layer's output before its clamp. -/
theorem hidden_apply (v0 v2 v4 : Vec Ideal S4096x128 .f32) (v9 : Vec Ideal S128x32 .bf16) (v12 : Vec Ideal S1x32 .f32)
    (v19 : Vec Ideal S32x32 .bf16) (v22 : Vec Ideal S1x32 .f32) (v29 : Vec Ideal S32x32 .bf16) (v32 : Vec Ideal S1x32 .f32)
    (r : Fin 4096) (k : Fin 32) :
    k0_pay2 (F := Ideal) v0 v2 v4 v9 v12 v19 v22 v29 v32 (ix2 r k)
      = dense (fun j => relu (dense (fun i => relu (dense (featureRow v0 v2 v4 r) v9 (fun j => v12 (ix2 0 j)) i))
          v19 (fun j => v22 (ix2 0 j)) j)) v29 (fun j => v32 (ix2 0 j)) k := by
  unfold k0_pay2
  refine blockLayer_apply _ rfl _ v29 v32 _ _ _ r k _ (fun j => ?_)
  refine (clamp_apply _ r j).trans (congrArg relu ?_)
  refine blockLayer_apply _ rfl _ v19 v22 _ _ _ r j _ (fun i => ?_)
  refine (clamp_apply _ r i).trans (congrArg relu ?_)
  refine blockLayer_apply _ rfl _ v9 v12 _ _ _ r i _ (fun d => ?_)
  show shapeCast S4096x128 v0 shapeCasts_S4096x128_S4096x128 (ix2 r d) * shapeCast S4096x128 v2 shapeCasts_S4096x128_S4096x128 (ix2 r d)
      * shapeCast S4096x128 v4 shapeCasts_S4096x128_S4096x128 (ix2 r d) = featureRow v0 v2 v4 r d
  rw [shapeCast_self, shapeCast_self, shapeCast_self]
  rfl

/-- What the body stores, at row `r`: the score of row `r` of the three feature blocks, with the weight blocks and
    the bias rows as the body loaded them. -/
theorem stored_apply (v0 v2 v4 : Vec Ideal S4096x128 .f32) (v9 : Vec Ideal S128x32 .bf16) (v12 : Vec Ideal S1x32 .f32)
    (v19 : Vec Ideal S32x32 .bf16) (v22 : Vec Ideal S1x32 .f32) (v29 : Vec Ideal S32x32 .bf16) (v32 : Vec Ideal S1x32 .f32)
    (v39 : Vec Ideal S32x1 .bf16) (v42 : Vec Ideal S1x1 .f32) (r : Fin 4096) (q : Fin 1) :
    k0_pay1 (F := Ideal) (k0_pay2 (F := Ideal) v0 v2 v4 v9 v12 v19 v22 v29 v32) v39 v42 (ix2 r q)
      = score (featureRow v0 v2 v4 r) v9 (fun j => v12 (ix2 0 j)) v19 (fun j => v22 (ix2 0 j))
          v29 (fun j => v32 (ix2 0 j)) v39 (fun j => v42 (ix2 0 j)) := by
  obtain rfl : q = 0 := Subsingleton.elim _ _
  unfold k0_pay1 score
  refine congrArg Ideal.logistic ?_
  refine blockLayer_apply _ rfl _ v39 v42 _ _ _ r 0 _ (fun k => ?_)
  exact (clamp_apply _ r k).trans (congrArg relu (hidden_apply v0 v2 v4 v9 v12 v19 v22 v29 v32 r k))

end Cert.KernelIdeal.BlockScore

end
-- ==== Proof.PaddedScores.lean ====
/-
  The array the region leaves: the scores of all 503808 padded rows.

  The grid has 123 points. Point `t` reads rows `4096 t … 4096 t + 4095` of the three padded feature arrays and the
  whole of every weight and bias array, and writes back rows `4096 t … 4096 t + 4095` of the output column. By
  Proof/BlockScore.lean what it writes at row `r` of its block is the score of row `4096 t + r`. The 123 blocks
  tile the column, so after the region the column holds the score of every padded row.
-/
import proofs.«426207_j77051713290672_3_alg».proof.Proof.Gen.KernelIdeal.Frame
import proofs.«426207_j77051713290672_3_alg».proof.Proof.BlockScore

set_option maxRecDepth 16384

noncomputable section

namespace Cert.KernelIdeal.PaddedScores

open Cert.KernelIdeal Cert.KernelIdeal.Gen Idealize.ShloMosaic Idealize.ShloMosaic.TcCoe Idealize.ShloMosaic.ValueIdx Cert.EdgeScore
open Idealize.SL.Sem
open Idealize.ShloMosaic.Pipeline (Dat Cfg Window)

variable (m : (ℓ : Loc nD τ sig) → Buf (Elt Ideal) ℓ)

/-! ## The arrays as the region finds them -/

abbrev feat1 (c : Dev nD) : Vec Ideal S503808x128 .f32 := V m c main_v31
abbrev feat2 (c : Dev nD) : Vec Ideal S503808x128 .f32 := V m c main_v32
abbrev feat3 (c : Dev nD) : Vec Ideal S503808x128 .f32 := V m c main_v33
abbrev wgt1 (c : Dev nD) : Vec Ideal S128x32 .bf16 := V m c main_v35
abbrev bias1 (c : Dev nD) : Vec Ideal S1x32 .f32 := V m c main_v42
abbrev wgt2 (c : Dev nD) : Vec Ideal S32x32 .bf16 := V m c main_v37
abbrev bias2 (c : Dev nD) : Vec Ideal S1x32 .f32 := V m c main_v43
abbrev wgt3 (c : Dev nD) : Vec Ideal S32x32 .bf16 := V m c main_v39
abbrev bias3 (c : Dev nD) : Vec Ideal S1x32 .f32 := V m c main_v44
abbrev wgt4 (c : Dev nD) : Vec Ideal S32x1 .bf16 := V m c main_v41
abbrev bias4 (c : Dev nD) : Vec Ideal S1x1 .f32 := V m c main_v45

/-- The score of every padded row, from the arrays as the region finds them. -/
def padded (c : Dev nD) : Vec Ideal S503808x1 .f32 :=
  scores (feat1 m c) (feat2 m c) (feat3 m c) (wgt1 m c) (fun j => bias1 m c (ix2 0 j)) (wgt2 m c) (fun j => bias2 m c (ix2 0 j))
    (wgt3 m c) (fun j => bias3 m c (ix2 0 j)) (wgt4 m c) (fun j => bias4 m c (ix2 0 j))

theorem hz : (![0, 0] : Fin 2 → Nat) = fun _ => 0 := funext fun a => by fin_cases a <;> rfl

/-- The printed index maps, decided over the 123 points: the feature windows and the output window are at block
    `(t, 0)`, the weight and bias windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-! ## Each window's block at point `t`, read off its array -/

abbrev fblk1 (c : Dev nD) (t : Fin cfg0.N) : Vec Ideal S4096x128 .f32 := iblk m c 0 t
abbrev fblk2 (c : Dev nD) (t : Fin cfg0.N) : Vec Ideal S4096x128 .f32 := iblk m c 1 t
abbrev fblk3 (c : Dev nD) (t : Fin cfg0.N) : Vec Ideal S4096x128 .f32 := iblk m c 2 t
abbrev wblk1 (c : Dev nD) (t : Fin cfg0.N) : Vec Ideal S128x32 .bf16 := iblk m c 3 t
abbrev bblk1 (c : Dev nD) (t : Fin cfg0.N) : Vec Ideal S1x32 .f32 := iblk m c 4 t
abbrev wblk2 (c : Dev nD) (t : Fin cfg0.N) : Vec Ideal S32x32 .bf16 := iblk m c 5 t
abbrev bblk2 (c : Dev nD) (t : Fin cfg0.N) : Vec Ideal S1x32 .f32 := iblk m c 6 t
abbrev wblk3 (c : Dev nD) (t : Fin cfg0.N) : Vec Ideal S32x32 .bf16 := iblk m c 7 t
abbrev bblk3 (c : Dev nD) (t : Fin cfg0.N) : Vec Ideal S1x32 .f32 := iblk m c 8 t
abbrev wblk4 (c : Dev nD) (t : Fin cfg0.N) : Vec Ideal S32x1 .bf16 := iblk m c 9 t
abbrev bblk4 (c : Dev nD) (t : Fin cfg0.N) : Vec Ideal S1x1 .f32 := iblk m c 10 t

/-- The row of the padded arrays that row `r` of point `t`'s block is. -/
def rowOf (t : Fin cfg0.N) (r : Fin 4096) : Fin 503808 :=
  ⟨t.val * 4096 + r.val, by have ht : t.val < 123 := t.isLt; have := r.isLt; omega⟩

/-- Row `r` of the first feature block at point `t` is row `4096 t + r` of the first feature array. -/
theorem fblk1_apply (c : Dev nD) (t : Fin cfg0.N) (r : Fin 4096) (d : Fin 128) :
    fblk1 m c t (ix2 r d) = feat1 m c (ix2 (rowOf t r) d) := by
  obtain ⟨e0, e1, -⟩ := idx_facts t
  show V m c main_v31 (((cfg0.win 0).blk t).view.emb (ix2 r d)) = V m c main_v31 (ix2 (rowOf t r) d)
  have h : ((cfg0.win 0).blk t).view.emb (ix2 r d) = ix2 (rowOf t r) d := by
    funext a; apply Fin.ext
    match a with
    | ⟨0, _⟩ => show win0_0.index t (0 : Fin 2) * 4096 + 1 * r.val = t.val * 4096 + r.val; omega
    | ⟨1, _⟩ => show win0_0.index t (1 : Fin 2) * 128 + 1 * d.val = d.val; omega
  rw [h]

/-- The first weight block at any point is the whole first weight array. -/
theorem wblk1_eq (c : Dev nD) (t : Fin cfg0.N) : wblk1 m c t = wgt1 m c := by
  obtain ⟨-, -, -, -, -, -, e0, e1, -⟩ := idx_facts t
  funext y
  show V m c main_v35 (((cfg0.win 3).blk t).view.emb y) = V m c main_v35 y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 32 + 1 * (y 1).val = (y 1).val; omega
  rw [h]

theorem fblk2_apply (c : Dev nD) (t : Fin cfg0.N) (r : Fin 4096) (d : Fin 128) :
    fblk2 m c t (ix2 r d) = feat2 m c (ix2 (rowOf t r) d) := by
  obtain ⟨-, -, e0, e1, -⟩ := idx_facts t
  show V m c main_v32 (((cfg0.win 1).blk t).view.emb (ix2 r d)) = V m c main_v32 (ix2 (rowOf t r) d)
  have h : ((cfg0.win 1).blk t).view.emb (ix2 r d) = ix2 (rowOf t r) d := by
    funext a; apply Fin.ext
    match a with
    | ⟨0, _⟩ => show win0_1.index t (0 : Fin 2) * 4096 + 1 * r.val = t.val * 4096 + r.val; omega
    | ⟨1, _⟩ => show win0_1.index t (1 : Fin 2) * 128 + 1 * d.val = d.val; omega
  rw [h]

theorem fblk3_apply (c : Dev nD) (t : Fin cfg0.N) (r : Fin 4096) (d : Fin 128) :
    fblk3 m c t (ix2 r d) = feat3 m c (ix2 (rowOf t r) d) := by
  obtain ⟨-, -, -, -, e0, e1, -⟩ := idx_facts t
  show V m c main_v33 (((cfg0.win 2).blk t).view.emb (ix2 r d)) = V m c main_v33 (ix2 (rowOf t r) d)
  have h : ((cfg0.win 2).blk t).view.emb (ix2 r d) = ix2 (rowOf t r) d := by
    funext a; apply Fin.ext
    match a with
    | ⟨0, _⟩ => show win0_2.index t (0 : Fin 2) * 4096 + 1 * r.val = t.val * 4096 + r.val; omega
    | ⟨1, _⟩ => show win0_2.index t (1 : Fin 2) * 128 + 1 * d.val = d.val; omega
  rw [h]

/-- The first bias block at any point is the whole first bias row. -/
theorem bblk1_eq (c : Dev nD) (t : Fin cfg0.N) : bblk1 m c t = bias1 m c := by
  obtain ⟨-, -, -, -, -, -, -, -, e0, e1, -⟩ := idx_facts t
  funext y
  show V m c main_v42 (((cfg0.win 4).blk t).view.emb y) = V m c main_v42 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 32 + 1 * (y 1).val = (y 1).val; omega
  rw [h]

theorem wblk2_eq (c : Dev nD) (t : Fin cfg0.N) : wblk2 m c t = wgt2 m c := by
  obtain ⟨-, -, -, -, -, -, -, -, -, -, e0, e1, -⟩ := idx_facts t
  funext y
  show V m c main_v37 (((cfg0.win 5).blk t).view.emb y) = V m c main_v37 y
  have h : ((cfg0.win 5).blk t).view.emb y = y := by
    funext a; apply Fin.ext
    match a with
    | ⟨0, _⟩ => show win0_5.index t (0 : Fin 2) * 32 + 1 * (y 0).val = (y 0).val; omega
    | ⟨1, _⟩ => show win0_5.index t (1 : Fin 2) * 32 + 1 * (y 1).val = (y 1).val; omega
  rw [h]

theorem bblk2_eq (c : Dev nD) (t : Fin cfg0.N) : bblk2 m c t = bias2 m c := by
  obtain ⟨-, -, -, -, -, -, -, -, -, -, -, -, e0, e1, -⟩ := idx_facts t
  funext y
  show V m c main_v43 (((cfg0.win 6).blk t).view.emb y) = V m c main_v43 y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 32 + 1 * (y 1).val = (y 1).val; omega
  rw [h]

theorem wblk3_eq (c : Dev nD) (t : Fin cfg0.N) : wblk3 m c t = wgt3 m c := by
  obtain ⟨-, -, -, -, -, -, -, -, -, -, -, -, -, -, e0, e1, -⟩ := idx_facts t
  funext y
  show V m c main_v39 (((cfg0.win 7).blk t).view.emb y) = V m c main_v39 y
  have h : ((cfg0.win 7).blk t).view.emb y = y := by
    funext a; apply Fin.ext
    match a with
    | ⟨0, _⟩ => show win0_7.index t (0 : Fin 2) * 32 + 1 * (y 0).val = (y 0).val; omega
    | ⟨1, _⟩ => show win0_7.index t (1 : Fin 2) * 32 + 1 * (y 1).val = (y 1).val; omega
  rw [h]

theorem bblk3_eq (c : Dev nD) (t : Fin cfg0.N) : bblk3 m c t = bias3 m c := by
  obtain ⟨-, -, -, -, -, -, -, -, -, -, -, -, -, -, -, -, e0, e1, -⟩ := idx_facts t
  funext y
  show V m c main_v44 (((cfg0.win 8).blk t).view.emb y) = V m c main_v44 y
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 32 + 1 * (y 1).val = (y 1).val; omega
  rw [h]

theorem wblk4_eq (c : Dev nD) (t : Fin cfg0.N) : wblk4 m c t = wgt4 m c := by
  obtain ⟨-, -, -, -, -, -, -, -, -, -, -, -, -, -, -, -, -, -, e0, e1, -⟩ := idx_facts t
  funext y
  show V m c main_v41 (((cfg0.win 9).blk t).view.emb y) = V m c main_v41 y
  have h : ((cfg0.win 9).blk t).view.emb y = y := by
    funext a; apply Fin.ext
    match a with
    | ⟨0, _⟩ => show win0_9.index t (0 : Fin 2) * 32 + 1 * (y 0).val = (y 0).val; omega
    | ⟨1, _⟩ => show win0_9.index t (1 : Fin 2) * 1 + 1 * (y 1).val = (y 1).val; omega
  rw [h]

theorem bblk4_eq (c : Dev nD) (t : Fin cfg0.N) : bblk4 m c t = bias4 m c := by
  obtain ⟨-, -, -, -, -, -, -, -, -, -, -, -, -, -, -, -, -, -, -, -, e0, e1, -⟩ := idx_facts t
  funext y
  show V m c main_v45 (((cfg0.win 10).blk t).view.emb y) = V m c main_v45 y
  have h : ((cfg0.win 10).blk t).view.emb y = y := by
    funext a; apply Fin.ext
    match a with
    | ⟨0, _⟩ => show win0_10.index t (0 : Fin 2) * 1 + 1 * (y 0).val = (y 0).val; omega
    | ⟨1, _⟩ => show win0_10.index t (1 : Fin 2) * 1 + 1 * (y 1).val = (y 1).val; omega
  rw [h]

/-- Any column read through the output window's block at point `t`: row `r` of the block is row `4096 t + r`. -/
theorem outBlock_apply (G : Vec Ideal S503808x1 .f32) (t : Fin cfg0.N) (r : Fin 4096) (q : Fin 1) :
    ((cfg0.win 11).blk t).view.read (Elt Ideal) G (ix2 r q) = G (ix2 (rowOf t r) q) := by
  obtain ⟨-, -, -, -, -, -, -, -, -, -, -, -, -, -, -, -, -, -, -, -, -, -, e0, e1⟩ := idx_facts t
  show G (((cfg0.win 11).blk t).view.emb (ix2 r q)) = G (ix2 (rowOf t r) q)
  have h : ((cfg0.win 11).blk t).view.emb (ix2 r q) = ix2 (rowOf t r) q := by
    funext a; apply Fin.ext
    match a with
    | ⟨0, _⟩ => show win0_11.index t (0 : Fin 2) * 4096 + 1 * r.val = t.val * 4096 + r.val; omega
    | ⟨1, _⟩ => show win0_11.index t (1 : Fin 2) * 1 + 1 * q.val = q.val; omega
  rw [h]

/-- What point `t` writes back is block `t` of the padded scores. -/
theorem flushed_eq (c : Dev nD) (t : Fin cfg0.N) :
    (dats m 0 c).flushed 11 t = ((cfg0.win 11).blk t).view.read (Elt Ideal) (padded m c) := by
  show (cfg0.win 11).cut (grid0.coords t) ((dats m 0 c).after 11 t) = _
  rw [after0_11]
  unfold out0_11
  rw [View.canon_unit_zero hz]
  simp only [View.ld_unit_zero (S := S4096x128) hz, View.ld_unit_zero (S := S128x32) hz, View.ld_unit_zero (S := S1x32) hz,
    View.ld_unit_zero (S := S32x32) hz, View.ld_unit_zero (S := S32x1) hz, View.ld_unit_zero (S := S1x1) hz]
  funext j
  obtain ⟨r, q, rfl⟩ : ∃ (r : Fin 4096) (q : Fin 1), j = ix2 r q := ⟨j 0, j 1, eq_ix2 j⟩
  refine (Cert.KernelIdeal.BlockScore.stored_apply (fblk1 m c t) (fblk2 m c t) (fblk3 m c t) (wblk1 m c t) (bblk1 m c t)
    (wblk2 m c t) (bblk2 m c t) (wblk3 m c t) (bblk3 m c t) (wblk4 m c t) (bblk4 m c t) r q).trans ?_
  refine Eq.trans ?_ (outBlock_apply (padded m c) t r q).symm
  unfold padded
  rw [scores_apply, wblk1_eq, bblk1_eq, wblk2_eq, bblk2_eq, wblk3_eq, bblk3_eq, wblk4_eq, bblk4_eq]
  have hrow : featureRow (fblk1 m c t) (fblk2 m c t) (fblk3 m c t) r = featureRow (feat1 m c) (feat2 m c) (feat3 m c) (rowOf t r) := by
    funext d
    unfold featureRow
    rw [fblk1_apply, fblk2_apply, fblk3_apply]
  rw [hrow]

/-- An index of the output column is in point `t`'s block iff each coordinate is in the block's range on its axis. -/
theorem mem_blk (t : Fin cfg0.N) (i : S503808x1.Idx) :
    i ∈ ((cfg0.win 11).blk t).view.set ↔ ∀ a : Fin 2, win0_11.index t a * S4096x1.size a ≤ (i a).val ∧ (i a).val < win0_11.index t a * S4096x1.size a + S4096x1.size a := by
  show i ∈ ((View.whole main_v46).slice (win0_11.rect t)).set ↔ _
  rw [View.set_slice_whole, Rect.mem_set_unit]
  exact Iff.rfl

/-- Every row of the column is in the block of the point `row / 4096`: `503808 = 123 · 4096`. -/
theorem cover (i : S503808x1.Idx) :
    ∃ t : Fin cfg0.N, (cfg0.win 11).flush t = true ∧ i ∈ ((cfg0.win 11).blk t).view.set := by
  have hi0 : (i 0).val < 503808 := (i 0).isLt
  have hi1 : (i 1).val < 1 := (i 1).isLt
  have ht : (i 0).val / 4096 < 123 := by omega
  obtain ⟨-, -, -, -, -, -, -, -, -, -, -, -, -, -, -, -, -, -, -, -, -, -, e0, e1⟩ := idx_facts ⟨(i 0).val / 4096, ht⟩
  refine ⟨⟨(i 0).val / 4096, ht⟩, flush0_11 _, ?_⟩
  rw [mem_blk]
  intro a
  match a with
  | ⟨0, _⟩ =>
    show win0_11.index ⟨(i 0).val / 4096, ht⟩ (0 : Fin 2) * 4096 ≤ (i 0).val ∧ (i 0).val < win0_11.index ⟨(i 0).val / 4096, ht⟩ (0 : Fin 2) * 4096 + 4096
    have e0' : win0_11.index ⟨(i 0).val / 4096, ht⟩ (0 : Fin 2) = (i 0).val / 4096 := e0
    omega
  | ⟨1, _⟩ =>
    show win0_11.index ⟨(i 0).val / 4096, ht⟩ (1 : Fin 2) * 1 ≤ (i 1).val ∧ (i 1).val < win0_11.index ⟨(i 0).val / 4096, ht⟩ (1 : Fin 2) * 1 + 1
    omega

/-- After the region the output column holds the score of every padded row. -/
theorem final (c : Dev nD) : (dats m 0 c).arrAt 11 cfg0.N = padded m c :=
  (dats m 0 c).arrAt_eq_of_cover 11 (padded m c) (fun t _ => flushed_eq m c t) cover

end Cert.KernelIdeal.PaddedScores

end
-- ==== Proof.IndexOps.lean ====
/-
  Row indices that are in range.

  The edge table has four integer columns; the first three are row numbers into a table of 4096 rows. When a row
  number `v` satisfies `0 ≤ v < 4096`:
  * the Python-style wrap `if v < 0 then v + 4096 else v` leaves it alone (it needs only `0 ≤ v`), and
  * the clip `min 4095 (max 0 v)` leaves it alone.
  So a program that wraps and a program that clips and then wraps hand the same index vector to their gathers.
  Both facts are stated for integer vectors of any shape, entry by entry.
-/
import Idealize.ShloMosaic.Lib.Pipeline.Value
import Idealize.ShloMosaic.Lib.ValueIdx
import Idealize.ShloMosaic.Lib.Affine

noncomputable section

namespace Cert.EdgeIndex

open Idealize.ShloMosaic Idealize.ShloMosaic.ValueIdx

/-- Column `k` of the edge table, as a vector over the edges. -/
def col (x2 : IVec ⟨2, ![500000, 4]⟩ 32) (k : Fin 4) : IVec ⟨1, ![500000]⟩ 32 := fun i => x2 (ix2 (i 0) k)

theorem col_apply (x2 : IVec ⟨2, ![500000, 4]⟩ 32) (k : Fin 4) (e : Fin 500000) : col x2 k (ix1 e) = x2 (ix2 e k) := rfl

/-- The three index columns hold row numbers of the 4096-row table. -/
def InRange (x2 : IVec ⟨2, ![500000, 4]⟩ 32) : Prop :=
  ∀ (e : Fin 500000) (k : Fin 4), k.val < 3 → 0 ≤ (x2 (ix2 e k)).toInt ∧ (x2 (ix2 e k)).toInt < 4096

theorem InRange.col {x2 : IVec ⟨2, ![500000, 4]⟩ 32} (h : InRange x2) (k : Fin 4) (hk : k.val < 3) (i : (⟨1, ![500000]⟩ : Shape).Idx) :
    0 ≤ (col x2 k i).toInt ∧ (col x2 k i).toInt < 4096 := h (i 0) k hk

/-- The wrap of negative indices is the identity on a vector without negative entries. -/
theorem wrap_of_nonneg {s : Shape} (v : IVec s 32) (hb : (⟨0, ![]⟩ : Shape).BroadcastsInDim s (![] : Fin 0 → Fin s.rank))
    (hv : ∀ i, 0 ≤ (v i).toInt) :
    select (cmpi .slt v (broadcastInDim s ![] hb (constantI ⟨0, ![]⟩ 32 0#32)))
        (addi v (broadcastInDim s ![] hb (constantI ⟨0, ![]⟩ 32 4096#32))) v = v := by
  funext i
  show Scalar.select (IntOp.cmpi .slt (v i) 0#32) (IntOp.addi (v i) 4096#32) (v i) = v i
  unfold Scalar.select
  rw [if_neg]
  intro hc
  have h := IntOp.cmpi_slt.mp hc
  have h0 : (0#32 : BitVec 32).toInt = 0 := by decide
  have := hv i
  omega

/-- The clip into `[0, 4095]` is the identity on a vector whose entries are already there. -/
theorem clip_of_inRange {s : Shape} (v : IVec s 32) (hb : (⟨0, ![]⟩ : Shape).BroadcastsInDim s (![] : Fin 0 → Fin s.rank))
    (hv : ∀ i, 0 ≤ (v i).toInt ∧ (v i).toInt < 4096) :
    minsi (broadcastInDim s ![] hb (constantI ⟨0, ![]⟩ 32 4095#32))
        (maxsi (broadcastInDim s ![] hb (constantI ⟨0, ![]⟩ 32 0#32)) v) = v := by
  funext i
  show IntOp.minsi 4095#32 (IntOp.maxsi 0#32 (v i)) = v i
  obtain ⟨h0, h1⟩ := hv i
  have z0 : (0#32 : BitVec 32).toInt = 0 := by decide
  have z1 : (4095#32 : BitVec 32).toInt = 4095 := by decide
  have hmax : IntOp.maxsi 0#32 (v i) = v i := by
    unfold IntOp.maxsi
    rw [if_neg]
    intro hc
    have := BitVec.slt_iff_toInt_lt.mp hc
    omega
  rw [hmax]
  unfold IntOp.minsi
  rw [if_neg]
  intro hc
  have := BitVec.slt_iff_toInt_lt.mp hc
  omega

end Cert.EdgeIndex

end
-- ==== Proof.KernelIndex.lean ====
/-
  The index vectors the kernel program hands its gathers, and its label column.

  The kernel program cuts columns 0 to 2 out of the edge table, clips every entry into `[0, 4095]`, cuts one column
  out of the clipped table, and applies the wrap of negative indices to it. When the three columns are in range
  (Proof/IndexOps.lean) the clip and the wrap do nothing, so each index vector is the plain column of the table.
  The label column is column 3, cut out and flattened, in either program's spelling.
-/
import proofs.«426207_j77051713290672_3_alg».proof.Proof.Gen.KernelIdeal
import proofs.«426207_j77051713290672_3_alg».proof.Proof.Gen.ReferenceIdeal.Read
import proofs.«426207_j77051713290672_3_alg».proof.Proof.IndexOps
import Idealize.ShloMosaic.Lib.ValueLayout

noncomputable section

namespace Cert.KernelIdeal.KernelIndex

open Cert.KernelIdeal Cert.KernelIdeal.Gen Idealize.ShloMosaic Idealize.ShloMosaic.ValueIdx Cert.EdgeIndex

/-- Columns 0 to 2 of the edge table, every entry clipped into `[0, 4095]`. -/
def clipped (x2 : IVec S500000x4 32) : IVec S500000x3 32 :=
  minsi (broadcastInDim S500000x3 ![] bcast_S_S500000x3 (constantI S_ 32 4095#32))
    (maxsi (broadcastInDim S500000x3 ![] bcast_S_S500000x3 (constantI S_ 32 0#32))
      (extractStridedSlice S500000x3 ![0, 0] x2 slices_S500000x4_S500000x3_0_0))

/-- Column `o` of the clipped table, flattened to a vector over the edges. -/
def clippedCol (x2 : IVec S500000x4 32) (o : Nat) (h : S500000x3.Slices ![0, o] S500000x1) : IVec S500000 32 :=
  shapeCast S500000 (extractStridedSlice S500000x1 ![0, o] (clipped x2) h) shapeCasts_S500000x1_S500000

/-- The index vector a gather receives: the clipped column with the wrap of negative indices applied. -/
def gatherIdx (x2 : IVec S500000x4 32) (o : Nat) (h : S500000x3.Slices ![0, o] S500000x1) : IVec S500000 32 :=
  select (cmpi .slt (clippedCol x2 o h) (broadcastInDim S500000 ![] bcast_S_S500000 (constantI S_ 32 0#32)))
    (addi (clippedCol x2 o h) (broadcastInDim S500000 ![] bcast_S_S500000 (constantI S_ 32 4096#32)))
    (clippedCol x2 o h)

/-- A one-column matrix flattened to a vector reads, at `e`, the matrix at `(e, 0)`: both have row-major position `e`. -/
theorem flat_apply {α : Type} {a : Nat} (x : (⟨2, ![a, 1]⟩ : Shape).Idx → α)
    (h : (⟨2, ![a, 1]⟩ : Shape).ShapeCasts ⟨1, ![a]⟩) (e : Fin a) :
    shapeCast ⟨1, ![a]⟩ x h (ix1 e) = x (ix2 e (0 : Fin 1)) :=
  shapeCast_apply x h _ _ (by
    rw [Shape.rowMajor_val_two, Shape.rowMajor_val_one]
    show e.val * 1 + 0 = e.val
    omega)

/-- Column `o` of a matrix with 500000 rows, cut out and flattened, reads at `e` the matrix at `(e, o)`. -/
theorem flatCol_apply {α : Type} {n : Nat} (y : (⟨2, ![500000, n]⟩ : Shape).Idx → α) (o : Nat)
    (h : (⟨2, ![500000, n]⟩ : Shape).Slices ![0, o] S500000x1) (c : Fin n) (hc : c.val = o) (e : Fin 500000) :
    shapeCast S500000 (extractStridedSlice S500000x1 ![0, o] y h) shapeCasts_S500000x1_S500000 (ix1 e) = y (ix2 e c) := by
  rw [flat_apply]
  exact slice2_axis1_apply o y h e (0 : Fin 1) c (by show c.val = o + 0; omega)

/-- In range, the clip does nothing: the clipped table is the plain cut of columns 0 to 2. Entry `(e, c)` of the cut is
    entry `(e, c)` of the table with `c < 3`, which lies in `[0, 4096)`. -/
theorem clipped_eq_slice (x2 : IVec S500000x4 32) (hr : InRange x2) :
    clipped x2 = extractStridedSlice S500000x3 ![0, 0] x2 slices_S500000x4_S500000x3_0_0 := by
  unfold clipped
  refine clip_of_inRange _ bcast_S_S500000x3 (fun i => ?_)
  obtain ⟨e, c, rfl⟩ : ∃ (e : Fin 500000) (c : Fin 3), i = ix2 e c := ⟨i 0, i 1, eq_ix2 i⟩
  have hc : c.val < 4 := by omega
  rw [slice2_axis1_apply 0 x2 slices_S500000x4_S500000x3_0_0 e c (⟨c.val, hc⟩ : Fin 4) (by show c.val = 0 + c.val; omega)]
  exact hr e ⟨c.val, hc⟩ c.isLt

/-- In range, the index vector a gather receives is the plain column. -/
theorem gatherIdx_eq_col (x2 : IVec S500000x4 32) (hr : InRange x2) (o : Nat) (h : S500000x3.Slices ![0, o] S500000x1)
    (k : Fin 4) (hk : k.val = o) (ho : o < 3) : gatherIdx x2 o h = col x2 k := by
  subst hk
  -- the clipped column is the column: flatten, cut the column, drop the clip, cut columns 0 to 2
  have hcol : clippedCol x2 k.val h = col x2 k := by
    funext i
    obtain ⟨e, rfl⟩ : ∃ e : Fin 500000, i = ix1 e := ⟨i 0, eq_ix1 i⟩
    unfold clippedCol
    rw [flatCol_apply (clipped x2) k.val h (⟨k.val, ho⟩ : Fin 3) rfl e, clipped_eq_slice x2 hr,
      slice2_axis1_apply 0 x2 slices_S500000x4_S500000x3_0_0 e (⟨k.val, ho⟩ : Fin 3) k (by show k.val = 0 + k.val; omega),
      col_apply]
  -- and the wrap leaves a column without negative entries alone
  unfold gatherIdx
  rw [hcol]
  exact wrap_of_nonneg (col x2 k) bcast_S_S500000 (fun i => (hr.col k ho i).1)

/-- The kernel program's label column is column 3 of the edge table. -/
theorem label_eq_col (x2 : IVec S500000x4 32) :
    shapeCast S500000 (extractStridedSlice S500000x1 ![0, 3] x2 slices_S500000x4_S500000x1_0_3) shapeCasts_S500000x1_S500000
      = col x2 3 := by
  funext i
  obtain ⟨e, rfl⟩ : ∃ e : Fin 500000, i = ix1 e := ⟨i 0, eq_ix1 i⟩
  rw [flatCol_apply x2 3 slices_S500000x4_S500000x1_0_3 (3 : Fin 4) rfl e, col_apply]

/-- The reference's label column is column 3 of the edge table. -/
theorem refLabel_eq_col (x2 : (⟨Cert.ReferenceIdeal.S500000x4, .i32⟩ : BufTy).Contents (Elt Ideal)) :
    Cert.ReferenceIdeal.Read.val_main_v7 (F := Ideal) x2 = col x2 3 := by
  -- row 3 of the transposed table, flattened: entry e of it is entry (e, 3) of the table
  funext i
  obtain ⟨e, rfl⟩ : ∃ e : Fin 500000, i = ix1 e := ⟨i 0, eq_ix1 i⟩
  rw [Cert.ReferenceIdeal.Read.val_main_v7_apply, Cert.ReferenceIdeal.Read.val_main_v6_apply,
    Cert.ReferenceIdeal.Read.val_main_v5_apply, col_apply]
  refine congrArg x2 (funext fun a => Fin.ext ?_)
  match a with
  | ⟨0, _⟩ => exact Nat.mod_eq_of_lt e.isLt
  | ⟨1, _⟩ => rfl

end Cert.KernelIdeal.KernelIndex

end
-- ==== Proof.RegionArrays.lean ====
/-
  The arrays the region is launched on, as terms of the program's arguments.

  Before the region the program computes, on the host: three gathered arrays (rows of the feature table at the
  clipped and wrapped index columns), each padded with 3808 zero rows to 503808 rows; the four weight matrices
  transposed and narrowed; the four bias vectors reshaped to rows. This module names those terms and states that
  each window's array, as the region finds it, is its term.
-/
import proofs.«426207_j77051713290672_3_alg».proof.Proof.PaddedScores
import proofs.«426207_j77051713290672_3_alg».proof.Proof.KernelIndex
import Idealize.ShloMosaic.Lib.StableHlo.Run

set_option maxRecDepth 16384

noncomputable section

namespace Cert.KernelIdeal.RegionArrays

open Cert.KernelIdeal Cert.KernelIdeal.Gen Idealize.ShloMosaic Idealize.ShloMosaic.TcCoe Idealize.SL.Sem Idealize.ShloMosaic.StableHlo
open Cert.KernelIdeal.PaddedScores Cert.KernelIdeal.KernelIndex

/-- The rows of the feature table at one index column: what a gather of the kernel program produces. -/
def gathered (x0 : FVec Ideal S4096x128 .f32) (x2 : IVec S500000x4 32) (o : Nat) (h : S500000x3.Slices ![0, o] S500000x1) :
    FVec Ideal S500000x128 .f32 :=
  Host.gather gather_S4096x128_S500000x1_S500000x128_1_0_n_n_0_1_1128 x0
    (broadcastInDim S500000x1 ![0] bcast_S500000_S500000x1_0 (gatherIdx x2 o h))

/-- A gathered array with 3808 zero rows appended: 503808 = 123 · 4096 rows. -/
def zeroPadded (g : FVec Ideal S500000x128 .f32) : FVec Ideal S503808x128 .f32 :=
  pad S503808x128 ![0, 0] ![3808, 0] ![0, 0] g (sitofp (F := Ideal) .f32 (constantI S_ 32 0#32))
    pads_S500000x128_S503808x128_038080_000 h_S_

variable (m : (ℓ : Loc nD τ sig) → Buf (Elt Ideal) ℓ)

set_option maxHeartbeats 16000000 in
theorem feat1_eq (c : Dev nD) :
    feat1 m c = zeroPadded (gathered (m ((c.tc : Thread nD τ).loc main_arg0)) (m ((c.tc : Thread nD τ).loc main_arg2)) 0 slices_S500000x3_S500000x1_0_0) := by
  show (V m c main_v31 : S503808x128.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 16000000 in
theorem feat2_eq (c : Dev nD) :
    feat2 m c = zeroPadded (gathered (m ((c.tc : Thread nD τ).loc main_arg0)) (m ((c.tc : Thread nD τ).loc main_arg2)) 1 slices_S500000x3_S500000x1_0_1) := by
  show (V m c main_v32 : S503808x128.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 16000000 in
theorem feat3_eq (c : Dev nD) :
    feat3 m c = zeroPadded (gathered (m ((c.tc : Thread nD τ).loc main_arg0)) (m ((c.tc : Thread nD τ).loc main_arg2)) 2 slices_S500000x3_S500000x1_0_2) := by
  show (V m c main_v33 : S503808x128.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The first weight matrix as the region finds it: the transpose of `W₁` (its narrowing is the identity here). -/
theorem wgt1_eq (c : Dev nD) :
    wgt1 m c = transpose S128x32 [1, 0] (m ((c.tc : Thread nD τ).loc main_arg5)) transposes_S32x128_S128x32_1_0 := by
  show (V m c main_v35 : S128x32.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

theorem wgt2_eq (c : Dev nD) :
    wgt2 m c = transpose S32x32 [1, 0] (m ((c.tc : Thread nD τ).loc main_arg7)) transposes_S32x32_S32x32_1_0 := by
  show (V m c main_v37 : S32x32.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

theorem wgt3_eq (c : Dev nD) :
    wgt3 m c = transpose S32x32 [1, 0] (m ((c.tc : Thread nD τ).loc main_arg9)) transposes_S32x32_S32x32_1_0 := by
  show (V m c main_v39 : S32x32.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

theorem wgt4_eq (c : Dev nD) :
    wgt4 m c = transpose S32x1 [1, 0] (m ((c.tc : Thread nD τ).loc main_arg11)) transposes_S1x32_S32x1_1_0 := by
  show (V m c main_v41 : S32x1.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The first bias as the region finds it: the vector `b₁` reshaped to one row. -/
theorem bias1_eq (c : Dev nD) : bias1 m c = shapeCast S1x32 (m ((c.tc : Thread nD τ).loc main_arg6)) shapeCasts_S32_S1x32 := by
  show (V m c main_v42 : S1x32.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

theorem bias2_eq (c : Dev nD) : bias2 m c = shapeCast S1x32 (m ((c.tc : Thread nD τ).loc main_arg8)) shapeCasts_S32_S1x32 := by
  show (V m c main_v43 : S1x32.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

theorem bias3_eq (c : Dev nD) : bias3 m c = shapeCast S1x32 (m ((c.tc : Thread nD τ).loc main_arg10)) shapeCasts_S32_S1x32 := by
  show (V m c main_v44 : S1x32.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

theorem bias4_eq (c : Dev nD) : bias4 m c = shapeCast S1x1 (m ((c.tc : Thread nD τ).loc main_arg12)) shapeCasts_S1_S1x1 := by
  show (V m c main_v45 : S1x1.Idx → EReal) = _
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

end Cert.KernelIdeal.RegionArrays

end
-- ==== Proof.HostSide.lean ====
/-
  The padded scores at a real edge, over the program's arguments.

  Edge `e < 500000` is row `e` of each padded feature array, and there the padding reads the gathered array itself.
  The weight arrays are the transposed weight matrices; a bias row at `(0, j)` is the bias vector at `j`. So the
  padded score column at row `e` is the score of edge `e` over the three gathered arrays, the transposed weights
  and the bias vectors.
-/
import proofs.«426207_j77051713290672_3_alg».proof.Proof.RegionArrays
import Idealize.ShloMosaic.Lib.KernelVsHost
import Idealize.ShloMosaic.Lib.ValueLayout

set_option maxRecDepth 16384

noncomputable section

namespace Cert.KernelIdeal.HostSide

open Cert.KernelIdeal Cert.KernelIdeal.Gen Idealize.ShloMosaic Idealize.ShloMosaic.TcCoe Idealize.SL.Sem Idealize.ShloMosaic.ValueIdx
open Cert.KernelIdeal.PaddedScores Cert.KernelIdeal.KernelIndex Cert.KernelIdeal.RegionArrays Cert.EdgeScore

/-- Edge `e` as a row of the padded arrays. -/
def padRow (e : Fin 500000) : Fin 503808 := ⟨e.val, by have := e.isLt; omega⟩

/-- Below row 500000 a padded array is the array it pads. -/
theorem zeroPadded_apply (g : FVec Ideal S500000x128 .f32) (e : Fin 500000) (d : Fin 128) :
    zeroPadded g (ix2 (padRow e) d) = g (ix2 e d) := by
  unfold zeroPadded
  exact pad_apply_of_inside _ _ _ g _ pads_S500000x128_S503808x128_038080_000 h_S_ (ix2 (padRow e) d) (ix2 e d) (fun a => by
    match a with
    | ⟨0, _⟩ => show e.val = 0 + e.val * (0 + 1); omega
    | ⟨1, _⟩ => show d.val = 0 + d.val * (0 + 1); omega)

variable (m : (ℓ : Loc nD τ sig) → Buf (Elt Ideal) ℓ)

theorem bias1_apply (c : Dev nD) (j : Fin 32) : bias1 m c (ix2 0 j) = (m ((c.tc : Thread nD τ).loc main_arg6)) (ix1 j) :=
  (congrFun (bias1_eq m c) (ix2 0 j)).trans (shapeCast_a_1a_apply _ shapeCasts_S32_S1x32 0 j)

theorem bias2_apply (c : Dev nD) (j : Fin 32) : bias2 m c (ix2 0 j) = (m ((c.tc : Thread nD τ).loc main_arg8)) (ix1 j) :=
  (congrFun (bias2_eq m c) (ix2 0 j)).trans (shapeCast_a_1a_apply _ shapeCasts_S32_S1x32 0 j)

theorem bias3_apply (c : Dev nD) (j : Fin 32) : bias3 m c (ix2 0 j) = (m ((c.tc : Thread nD τ).loc main_arg10)) (ix1 j) :=
  (congrFun (bias3_eq m c) (ix2 0 j)).trans (shapeCast_a_1a_apply _ shapeCasts_S32_S1x32 0 j)

theorem bias4_apply (c : Dev nD) (j : Fin 1) : bias4 m c (ix2 0 j) = (m ((c.tc : Thread nD τ).loc main_arg12)) (ix1 j) :=
  (congrFun (bias4_eq m c) (ix2 0 j)).trans (shapeCast_a_1a_apply _ shapeCasts_S1_S1x1 0 j)

/-- The padded score column at the row of a real edge: the score of that edge over the gathered arrays, the
    transposed weight matrices and the bias vectors. -/
theorem padded_apply (c : Dev nD) (e : Fin 500000) (q : Fin 1) :
    padded m c (ix2 (padRow e) q)
      = scores (gathered (m ((c.tc : Thread nD τ).loc main_arg0)) (m ((c.tc : Thread nD τ).loc main_arg2)) 0 slices_S500000x3_S500000x1_0_0)
          (gathered (m ((c.tc : Thread nD τ).loc main_arg0)) (m ((c.tc : Thread nD τ).loc main_arg2)) 1 slices_S500000x3_S500000x1_0_1)
          (gathered (m ((c.tc : Thread nD τ).loc main_arg0)) (m ((c.tc : Thread nD τ).loc main_arg2)) 2 slices_S500000x3_S500000x1_0_2)
          (transpose S128x32 [1, 0] (m ((c.tc : Thread nD τ).loc main_arg5)) transposes_S32x128_S128x32_1_0) (fun j => (m ((c.tc : Thread nD τ).loc main_arg6)) (ix1 j))
          (transpose S32x32 [1, 0] (m ((c.tc : Thread nD τ).loc main_arg7)) transposes_S32x32_S32x32_1_0) (fun j => (m ((c.tc : Thread nD τ).loc main_arg8)) (ix1 j))
          (transpose S32x32 [1, 0] (m ((c.tc : Thread nD τ).loc main_arg9)) transposes_S32x32_S32x32_1_0) (fun j => (m ((c.tc : Thread nD τ).loc main_arg10)) (ix1 j))
          (transpose S32x1 [1, 0] (m ((c.tc : Thread nD τ).loc main_arg11)) transposes_S1x32_S32x1_1_0) (fun j => (m ((c.tc : Thread nD τ).loc main_arg12)) (ix1 j)) (ix2 e q) := by
  unfold padded
  rw [scores_apply, scores_apply]
  have hrow : featureRow (feat1 m c) (feat2 m c) (feat3 m c) (padRow e)
      = featureRow (gathered (m ((c.tc : Thread nD τ).loc main_arg0)) (m ((c.tc : Thread nD τ).loc main_arg2)) 0 slices_S500000x3_S500000x1_0_0)
          (gathered (m ((c.tc : Thread nD τ).loc main_arg0)) (m ((c.tc : Thread nD τ).loc main_arg2)) 1 slices_S500000x3_S500000x1_0_1)
          (gathered (m ((c.tc : Thread nD τ).loc main_arg0)) (m ((c.tc : Thread nD τ).loc main_arg2)) 2 slices_S500000x3_S500000x1_0_2) e := by
    funext d
    unfold featureRow
    rw [feat1_eq, feat2_eq, feat3_eq, zeroPadded_apply, zeroPadded_apply, zeroPadded_apply]
  have hb1 : (fun j => bias1 m c (ix2 0 j)) = fun j => (m ((c.tc : Thread nD τ).loc main_arg6)) (ix1 j) := funext (bias1_apply m c)
  have hb2 : (fun j => bias2 m c (ix2 0 j)) = fun j => (m ((c.tc : Thread nD τ).loc main_arg8)) (ix1 j) := funext (bias2_apply m c)
  have hb3 : (fun j => bias3 m c (ix2 0 j)) = fun j => (m ((c.tc : Thread nD τ).loc main_arg10)) (ix1 j) := funext (bias3_apply m c)
  have hb4 : (fun j => bias4 m c (ix2 0 j)) = fun j => (m ((c.tc : Thread nD τ).loc main_arg12)) (ix1 j) := funext (bias4_apply m c)
  rw [hrow, hb1, hb2, hb3, hb4, wgt1_eq, wgt2_eq, wgt3_eq, wgt4_eq]

end Cert.KernelIdeal.HostSide

end
-- ==== Proof.KernelRun.lean ====
/-
  The kernel program's run, with its two results named.

  After the region one host operation cuts the first 500000 rows out of the padded score column: that is the
  first result, the score of every edge. The second result is the label column, cut out of the edge table before
  the region and untouched afterwards. The arguments end as they began.
-/
import proofs.«426207_j77051713290672_3_alg».proof.Proof.HostSide
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.SL.Sem Idealize.ShloMosaic.ValueIdx Idealize.ShloMosaic.StableHlo
open Cert.KernelIdeal.PaddedScores Cert.KernelIdeal.KernelIndex Cert.KernelIdeal.RegionArrays Cert.KernelIdeal.HostSide Cert.EdgeScore

variable (m : (ℓ : Loc nD τ sig) → Buf (Elt Ideal) ℓ) (ρ : Dev nD → PrngReg)

/-- The score of every edge, over the program's arguments. -/
def result (c : Dev nD) : FVec Ideal S500000x1 .f32 :=
  scores (gathered (m ((c.tc : Thread nD τ).loc main_arg0)) (m ((c.tc : Thread nD τ).loc main_arg2)) 0 slices_S500000x3_S500000x1_0_0)
    (gathered (m ((c.tc : Thread nD τ).loc main_arg0)) (m ((c.tc : Thread nD τ).loc main_arg2)) 1 slices_S500000x3_S500000x1_0_1)
    (gathered (m ((c.tc : Thread nD τ).loc main_arg0)) (m ((c.tc : Thread nD τ).loc main_arg2)) 2 slices_S500000x3_S500000x1_0_2)
    (transpose S128x32 [1, 0] (m ((c.tc : Thread nD τ).loc main_arg5)) transposes_S32x128_S128x32_1_0) (fun j => (m ((c.tc : Thread nD τ).loc main_arg6)) (ix1 j))
    (transpose S32x32 [1, 0] (m ((c.tc : Thread nD τ).loc main_arg7)) transposes_S32x32_S32x32_1_0) (fun j => (m ((c.tc : Thread nD τ).loc main_arg8)) (ix1 j))
    (transpose S32x32 [1, 0] (m ((c.tc : Thread nD τ).loc main_arg9)) transposes_S32x32_S32x32_1_0) (fun j => (m ((c.tc : Thread nD τ).loc main_arg10)) (ix1 j))
    (transpose S32x1 [1, 0] (m ((c.tc : Thread nD τ).loc main_arg11)) transposes_S1x32_S32x1_1_0) (fun j => (m ((c.tc : Thread nD τ).loc main_arg12)) (ix1 j))

/-- The label column, over the program's arguments. -/
def label (c : Dev nD) : IVec S500000 32 :=
  shapeCast S500000 (extractStridedSlice S500000x1 ![0, 3] (m ((c.tc : Thread nD τ).loc main_arg2)) slices_S500000x4_S500000x1_0_3) shapeCasts_S500000x1_S500000

/-- The first 500000 rows of the padded scores are the scores of the edges. -/
theorem slice_padded (c : Dev nD) :
    extractStridedSlice S500000x1 ![0, 0] (padded m c) slices_S503808x1_S500000x1_0_0 = result m c := by
  funext i
  obtain ⟨e, q, rfl⟩ : ∃ (e : Fin 500000) (q : Fin 1), i = ix2 e q := ⟨i 0, i 1, eq_ix2 i⟩
  rw [slice2_axis0_apply 0 (padded m c) slices_S503808x1_S500000x1_0_0 e q (padRow e) (by show e.val = 0 + e.val; omega)]
  exact padded_apply m c e q

/-- The output column's buffer after the region holds the padded scores. -/
theorem region_array (c : Dev nD) :
    (Pipeline.withArrays spec0 c (V0 m c) (fun w => (dats m 0 c).arrAt w cfg0.N) (Proc.devRef .tc main_v46)
      : S503808x1.Idx → EReal) = padded m c :=
  (Pipeline.withArrays_arr spec0 launch0.win.arr_inj c (V0 m c) (fun w => (dats m 0 c).arrAt w cfg0.N) 11).trans (final m c)

/-- The line after the region cuts the first 500000 rows out of the output column's buffer. -/
theorem tail_slice (c : Dev nD) :
    Pipeline.afterTail₀ cfgs (dats m) 0 (V0 m) [hostOps1] c main_v47
      = extractStridedSlice S500000x1 ![0, 0]
          (Pipeline.withArrays spec0 c (V0 m c) (fun w => (dats m 0 c).arrAt w cfg0.N) (Proc.devRef .tc main_v46))
          slices_S503808x1_S500000x1_0_0 := by
  unfold Pipeline.afterTail₀
  show StableHlo.after hostOps1 _ (Proc.devRef .tc main_v47) = _
  after_results

/-- What the line after the region leaves in the first result's buffer: the scores of the edges. -/
theorem tail_result (c : Dev nD) :
    Pipeline.afterTail₀ cfgs (dats m) 0 (V0 m) [hostOps1] c main_v47 = result m c := by
  rw [tail_slice, region_array]
  exact slice_padded m c

/-- The label column as the region finds it. -/
theorem label_before (c : Dev nD) : (V m c main_v1 : S500000.Idx → BitVec 32) = label m c := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The line after the region does not write the label column: it ends as the region found it. -/
theorem tail_label (c : Dev nD) :
    Pipeline.afterTail₀ cfgs (dats m) 0 (V0 m) [hostOps1] c main_v1 = label m c := by
  unfold Pipeline.afterTail₀
  rw [StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v1 (by exact (by decide : ∀ w, Pipeline.arrRef spec0 w ≠ main_v1))]
  exact label_before m c

/-- Every weakly fair execution of the kernel program terminates with the scores in its first result, the label
    column in its second, and its arguments unchanged. -/
theorem run : θ_run defs (onTc (τ := τ) (main (F := Ideal))) ⟨m, fun _ => 0, ρ⟩ fun r => ∀ c : Dev nD,
      r.2.mem ((c.tc : Thread nD τ).loc main_v47) = result m c
      ∧ r.2.mem ((c.tc : Thread nD τ).loc main_v1) = label m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨
      (((h c).2 main_v47 (Pipeline.mem_restRefs_of main_v47 (by decide) (by decide))).trans (tail_result m c)),
      (((h c).2 main_v1 (Pipeline.mem_restRefs_of main_v1 (by decide) (by decide))).trans (tail_label m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.KernelRun

end
-- ==== Proof.RefScore.lean ====
/-
  The reference computes the scores.

  Read stage by stage, the reference's result column is the score (Proof/EdgeScore.lean) of each edge's feature
  row: the three gathered arrays multiplied entry by entry, four affine layers with the transposed weight
  matrices and the bias vectors, `max · 0` after the first three, and `1 / (1 + exp (-·))` at the end, which over
  the extended reals is the logistic function by definition.

  The reading goes one layer at a time, at a fixed edge `e` and output coordinate. A matrix product read at
  `(e, i)` is the sum over `k` of the left operand at `(e, k)` times the right operand at `(k, i)`; a bias vector
  broadcast first to a row and then down the rows reads `b i` at `(e, i)`; the zero the maximum is taken against
  is the same word on both sides. So each hidden stage at `(e, i)` is `relu (dense · W b i)` of the row of the
  stage before it, and the last affine stage is `dense · W₄ b₄`. The tail `1 / (1 + exp (-z))`, with the word
  `0x3F800000` read as `1`, is `logistic z` by unfolding the definition.
-/
import proofs.«426207_j77051713290672_3_alg».proof.Proof.Gen.ReferenceIdeal.Read
import proofs.«426207_j77051713290672_3_alg».proof.Proof.EdgeScore

noncomputable section

namespace Cert.ReferenceIdeal.RefScore

open Cert.ReferenceIdeal Cert.ReferenceIdeal.Gen Cert.ReferenceIdeal.Read Idealize.ShloMosaic Idealize.ShloMosaic.ValueIdx
open Cert.EdgeScore
open scoped BigOperators

/-- The f32 word `0x3F800000` (sign 0, biased exponent 127, fraction 0) denotes `1`. -/
theorem one32 : FloatOps.ofBits (F := Ideal) .f32 0x3F800000#32 = (1 : EReal) := by
  rw [Ideal.ofBits_def]
  simp [Ideal.ofBits, Ideal.ieee, -EReal.coe_mul]; norm_num

/-- The product of the three gathered arrays, read at `(e, d)`, is entry `d` of the feature row of edge `e`. -/
theorem feature_apply (x0 : (⟨S4096x128, .f32⟩ : BufTy).Contents (Elt Ideal)) (x2 : (⟨S500000x4, .i32⟩ : BufTy).Contents (Elt Ideal))
    (e : Fin 500000) (d : Fin 128) :
    val_main_v37 (F := Ideal) x0 x2 (ix2 e d)
      = featureRow (val_main_v17 (F := Ideal) x0 x2) (val_main_v26 (F := Ideal) x0 x2) (val_main_v35 (F := Ideal) x0 x2) e d := rfl

/-- First hidden layer at `(e, i)`: `max (∑ k, x k * W₁ᵀ (k, i) + b₁ i) 0` with `x` the feature row of `e`. -/
theorem layer1 (x0 : (⟨S4096x128, .f32⟩ : BufTy).Contents (Elt Ideal)) (x2 : (⟨S500000x4, .i32⟩ : BufTy).Contents (Elt Ideal))
    (x5 : (⟨S32x128, .f32⟩ : BufTy).Contents (Elt Ideal)) (x6 : (⟨S32, .f32⟩ : BufTy).Contents (Elt Ideal))
    (e : Fin 500000) (i : Fin 32) :
    val_main_v43 (F := Ideal) x0 x2 x5 x6 (ix2 e i)
      = relu (dense (featureRow (val_main_v17 (F := Ideal) x0 x2) (val_main_v26 (F := Ideal) x0 x2) (val_main_v35 (F := Ideal) x0 x2) e)
          (val_main_v38 (F := Ideal) x5) (fun j => x6 (ix1 j)) i) := by
  rw [val_main_v43_apply, val_main_v42_apply, val_main_v39_apply, val_main_v41_apply, val_main_v40_apply,
    val_main_call0_v0_apply, val_main_call0_cst_apply]
  -- the product's operands are read at `(e, k)` and `(k, i)`, the bias at `i`
  have hl : ∀ k : Fin 128, lidx_main_v39 (ix2 e i) k = ix2 e k := fun k => funext fun a => Fin.ext (by
    match a with
    | ⟨0, _⟩ => rfl
    | ⟨1, _⟩ => rfl)
  have hr : ∀ k : Fin 128, ridx_main_v39 (ix2 e i) k = ix2 k i := fun k => funext fun a => Fin.ext (by
    match a with
    | ⟨0, _⟩ => rfl
    | ⟨1, _⟩ => rfl)
  have hb : idx_main_v40 (idx_main_v41 (ix2 e i)) = ix1 i := funext fun a => Fin.ext (by
    match a with
    | ⟨0, _⟩ => rfl)
  simp only [hl, hr, hb, feature_apply]
  rfl

/-- Second hidden layer at `(e, i)`: the same affine map and maximum, applied to the row of first-layer outputs of `e`. -/
theorem layer2 (x0 : (⟨S4096x128, .f32⟩ : BufTy).Contents (Elt Ideal)) (x2 : (⟨S500000x4, .i32⟩ : BufTy).Contents (Elt Ideal))
    (x5 : (⟨S32x128, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal))
    (e : Fin 500000) (i : Fin 32) :
    val_main_v49 (F := Ideal) x0 x2 x5 x6 x7 x8 (ix2 e i)
      = relu (dense (fun i => relu (dense (featureRow (val_main_v17 (F := Ideal) x0 x2) (val_main_v26 (F := Ideal) x0 x2) (val_main_v35 (F := Ideal) x0 x2) e) (val_main_v38 (F := Ideal) x5) (fun j => x6 (ix1 j)) i))
          (val_main_v44 (F := Ideal) x7) (fun j => x8 (ix1 j)) i) := by
  rw [val_main_v49_apply, val_main_v48_apply, val_main_v45_apply, val_main_v47_apply, val_main_v46_apply,
    val_main_call1_v0_apply, val_main_call1_cst_apply]
  have hl : ∀ k : Fin 32, lidx_main_v45 (ix2 e i) k = ix2 e k := fun k => funext fun a => Fin.ext (by
    match a with
    | ⟨0, _⟩ => rfl
    | ⟨1, _⟩ => rfl)
  have hr : ∀ k : Fin 32, ridx_main_v45 (ix2 e i) k = ix2 k i := fun k => funext fun a => Fin.ext (by
    match a with
    | ⟨0, _⟩ => rfl
    | ⟨1, _⟩ => rfl)
  have hb : idx_main_v46 (idx_main_v47 (ix2 e i)) = ix1 i := funext fun a => Fin.ext (by
    match a with
    | ⟨0, _⟩ => rfl)
  simp only [hl, hr, hb, layer1]
  rfl

/-- Third hidden layer at `(e, i)`, over the row of second-layer outputs of `e`. -/
theorem layer3 (x0 : (⟨S4096x128, .f32⟩ : BufTy).Contents (Elt Ideal)) (x2 : (⟨S500000x4, .i32⟩ : BufTy).Contents (Elt Ideal))
    (x5 : (⟨S32x128, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (e : Fin 500000) (i : Fin 32) :
    val_main_v55 (F := Ideal) x0 x2 x5 x6 x7 x8 x9 x10 (ix2 e i)
      = relu (dense (fun j => relu (dense (fun i => relu (dense (featureRow (val_main_v17 (F := Ideal) x0 x2) (val_main_v26 (F := Ideal) x0 x2) (val_main_v35 (F := Ideal) x0 x2) e) (val_main_v38 (F := Ideal) x5) (fun j => x6 (ix1 j)) i)) (val_main_v44 (F := Ideal) x7) (fun j => x8 (ix1 j)) j))
          (val_main_v50 (F := Ideal) x9) (fun j => x10 (ix1 j)) i) := by
  rw [val_main_v55_apply, val_main_v54_apply, val_main_v51_apply, val_main_v53_apply, val_main_v52_apply,
    val_main_call2_v0_apply, val_main_call2_cst_apply]
  have hl : ∀ k : Fin 32, lidx_main_v51 (ix2 e i) k = ix2 e k := fun k => funext fun a => Fin.ext (by
    match a with
    | ⟨0, _⟩ => rfl
    | ⟨1, _⟩ => rfl)
  have hr : ∀ k : Fin 32, ridx_main_v51 (ix2 e i) k = ix2 k i := fun k => funext fun a => Fin.ext (by
    match a with
    | ⟨0, _⟩ => rfl
    | ⟨1, _⟩ => rfl)
  have hb : idx_main_v52 (idx_main_v53 (ix2 e i)) = ix1 i := funext fun a => Fin.ext (by
    match a with
    | ⟨0, _⟩ => rfl)
  simp only [hl, hr, hb, layer2]
  rfl

/-- The output layer at `(e, q)`: `∑ k, y k * W₄ᵀ (k, q) + b₄ q` over the row `y` of third-layer outputs of `e`, with no maximum
    after it. The output has a single column, so the bias index `q` is `0`. -/
theorem layer4 (x0 : (⟨S4096x128, .f32⟩ : BufTy).Contents (Elt Ideal)) (x2 : (⟨S500000x4, .i32⟩ : BufTy).Contents (Elt Ideal))
    (x5 : (⟨S32x128, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (x11 : (⟨S1x32, .f32⟩ : BufTy).Contents (Elt Ideal)) (x12 : (⟨S1, .f32⟩ : BufTy).Contents (Elt Ideal))
    (e : Fin 500000) (q : Fin 1) :
    val_main_v60 (F := Ideal) x0 x2 x5 x6 x7 x8 x9 x10 x11 x12 (ix2 e q)
      = dense (fun k => relu (dense (fun j => relu (dense (fun i => relu (dense (featureRow (val_main_v17 (F := Ideal) x0 x2) (val_main_v26 (F := Ideal) x0 x2) (val_main_v35 (F := Ideal) x0 x2) e) (val_main_v38 (F := Ideal) x5) (fun j => x6 (ix1 j)) i)) (val_main_v44 (F := Ideal) x7) (fun j => x8 (ix1 j)) j)) (val_main_v50 (F := Ideal) x9) (fun j => x10 (ix1 j)) k))
          (val_main_v56 (F := Ideal) x11) (fun j => x12 (ix1 j)) q := by
  rw [val_main_v60_apply, val_main_v57_apply, val_main_v59_apply, val_main_v58_apply]
  have hl : ∀ k : Fin 32, lidx_main_v57 (ix2 e q) k = ix2 e k := fun k => funext fun a => Fin.ext (by
    match a with
    | ⟨0, _⟩ => rfl
    | ⟨1, _⟩ => rfl)
  have hr : ∀ k : Fin 32, ridx_main_v57 (ix2 e q) k = ix2 k q := fun k => funext fun a => Fin.ext (by
    match a with
    | ⟨0, _⟩ => rfl
    | ⟨1, _⟩ => rfl)
  have hb : idx_main_v58 (idx_main_v59 (ix2 e q)) = ix1 q := funext fun a => Fin.ext (by
    match a with
    | ⟨0, _⟩ => exact (Fin.val_eq_zero q).symm)
  simp only [hl, hr, hb, layer3]
  rfl

/-- The reference's result stage is the column of scores over its own gathered arrays and transposed weights. -/
theorem result_eq (x0 : (⟨S4096x128, .f32⟩ : BufTy).Contents (Elt Ideal)) (x2 : (⟨S500000x4, .i32⟩ : BufTy).Contents (Elt Ideal))
    (x5 : (⟨S32x128, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (x11 : (⟨S1x32, .f32⟩ : BufTy).Contents (Elt Ideal)) (x12 : (⟨S1, .f32⟩ : BufTy).Contents (Elt Ideal)) :
    val_main_v66 (F := Ideal) x0 x2 x5 x6 x7 x8 x9 x10 x11 x12
      = Cert.EdgeScore.scores (val_main_v17 (F := Ideal) x0 x2) (val_main_v26 (F := Ideal) x0 x2) (val_main_v35 (F := Ideal) x0 x2)
          (val_main_v38 (F := Ideal) x5) (fun j => x6 (ix1 j))
          (val_main_v44 (F := Ideal) x7) (fun j => x8 (ix1 j))
          (val_main_v50 (F := Ideal) x9) (fun j => x10 (ix1 j))
          (val_main_v56 (F := Ideal) x11) (fun j => x12 (ix1 j)) := by
  funext i
  obtain ⟨e, q, rfl⟩ : ∃ (e : Fin 500000) (q : Fin 1), i = ix2 e q := ⟨i 0, i 1, eq_ix2 i⟩
  rw [Cert.EdgeScore.scores_apply]
  unfold Cert.EdgeScore.score
  rw [val_main_v66_apply, val_main_v65_apply, val_main_cst_5_apply, val_main_v64_apply, val_main_v63_apply, val_main_cst_apply,
    val_main_v62_apply, val_main_v61_apply, layer4, one32]
  -- `1 / (1 + exp (-z))` is `logistic z` by definition; the only column is column `0`
  obtain rfl : q = 0 := Subsingleton.elim _ _
  rfl

end Cert.ReferenceIdeal.RefScore

end
-- ==== Proof.IndexRange.lean ====
/-
  The precondition puts the index columns in range, and then the reference's index vectors are the columns.

  The printed precondition ends in two conjuncts over columns 0 to 2 of the edge table: every entry is at least 0,
  and every entry is below 4096. Decoded, that is `InRange` (Proof/IndexOps.lean). Under it the reference's wrap of
  negative indices does nothing, so the vector it hands each gather is the plain column.
-/
import Idealize.ShloMosaic.Lib.ReduceAll
import Idealize.ShloMosaic.Lib.StableHlo.Predicate
import proofs.«426207_j77051713290672_3_alg».proof.Proof.Gen.Pre_finite_inputs
import proofs.«426207_j77051713290672_3_alg».proof.Proof.Gen.ReferenceIdeal.Read
import proofs.«426207_j77051713290672_3_alg».proof.Proof.IndexOps

noncomputable section

namespace Cert.EdgeIndex

open Idealize.ShloMosaic Idealize.ShloMosaic.ValueIdx

/-- The precondition, at the extended reals, puts the three index columns in range.

    The predicate is a conjunction `(… ∧ A) ∧ B` of one-bit words, where `A` is "all entries of the [500000 × 3] slice
    of the table are ≥ 0" and `B` is "all entries of that slice are < 4096", each an `and`-fold over the whole slice.
    A fold by `and` that comes out 1 met a 1 at every entry, so at entry (e, k) of the slice, which is entry (e, k)
    of the table for k < 3, the signed comparisons `0 ≤ v` and `v < 4096` both hold. -/
theorem inRange_of_pre
    (a0 : FVec Ideal Cert.Pre_finite_inputs.S4096x128 .f32) (a1 : FVec Ideal Cert.Pre_finite_inputs.S1024x1000 .f32)
    (a2 : IVec Cert.Pre_finite_inputs.S500000x4 32) (a3 : FVec Ideal Cert.Pre_finite_inputs.S128x1000 .f32)
    (a4 : FVec Ideal Cert.Pre_finite_inputs.S128 .f32) (a5 : FVec Ideal Cert.Pre_finite_inputs.S32x128 .f32)
    (a6 : FVec Ideal Cert.Pre_finite_inputs.S32 .f32) (a7 : FVec Ideal Cert.Pre_finite_inputs.S32x32 .f32)
    (a8 : FVec Ideal Cert.Pre_finite_inputs.S32 .f32) (a9 : FVec Ideal Cert.Pre_finite_inputs.S32x32 .f32)
    (a10 : FVec Ideal Cert.Pre_finite_inputs.S32 .f32) (a11 : FVec Ideal Cert.Pre_finite_inputs.S1x32 .f32)
    (a12 : FVec Ideal Cert.Pre_finite_inputs.S1 .f32)
    (h : Cert.Pre_finite_inputs.fn (F := Ideal) a0 a1 a2 a3 a4 a5 a6 a7 a8 a9 a10 a11 a12 = fun _ => 1#1) :
    InRange a2 := by
  -- the predicate's one word, as the nested conjunction it is
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- keep the last two conjuncts: "all ≥ 0" and "all < 4096"
  obtain ⟨h1, hlt⟩ := IntOp.andi_eq_one.1 h0
  obtain ⟨-, hge⟩ := IntOp.andi_eq_one.1 h1
  clear h0 h1 h
  haveI : Subsingleton Cert.Pre_finite_inputs.S_.Idx := ⟨fun a b => funext fun d => d.elim0⟩
  intro e k hk
  -- entry (e, k) of the three-column slice is entry (e, k) of the table
  have hread : extractStridedSlice Cert.Pre_finite_inputs.S500000x3 ![0, 0] a2
      Cert.Pre_finite_inputs.Facts.slices_S500000x4_S500000x3_0_0 (ix2 e (⟨k.val, hk⟩ : Fin 3)) = a2 (ix2 e k) :=
    extractStridedSlice_apply ![0, 0] a2 _ (ix2 e (⟨k.val, hk⟩ : Fin 3)) (ix2 e k) (fun a => match a with
      | ⟨0, _⟩ => by show e.val = 0 + e.val; omega
      | ⟨1, _⟩ => by show k.val = 0 + k.val; omega)
  -- each fold is 1, so its comparison holds at that entry
  have e0 := Host.reduce_andi_all _ _ _ _ ValueIdx.ix0 hge (ix2 e (⟨k.val, hk⟩ : Fin 3))
  have e1 := Host.reduce_andi_all _ _ _ _ ValueIdx.ix0 hlt (ix2 e (⟨k.val, hk⟩ : Fin 3))
  have z0 : (0#32 : BitVec 32).toInt = 0 := by decide
  have z1 : (4096#32 : BitVec 32).toInt = 4096 := by decide
  have g0 : (0#32 : BitVec 32).toInt ≤ (a2 (ix2 e k)).toInt := by
    rw [← hread]; exact IntOp.cmpi_sge.1 e0
  have g1 : (a2 (ix2 e k)).toInt < (4096#32 : BitVec 32).toInt := by
    rw [← hread]; exact IntOp.cmpi_slt.1 e1
  exact ⟨by omega, by omega⟩

section Reference

open Cert.ReferenceIdeal Cert.ReferenceIdeal.Gen Cert.ReferenceIdeal.Read

/-! The reference transposes the table to [4 × 500000], keeps rows 0 to 2, takes one row and flattens it to a vector
    over the edges. Entry e of row k of the transpose is entry (e, k) of the table: the flattened row is column k. -/

/-- Row 0 of the transposed table, flattened, is column 0. -/
theorem row0_eq_col (x2 : (⟨S500000x4, .i32⟩ : BufTy).Contents (Elt Ideal)) :
    val_main_v10 (F := Ideal) x2 = col x2 0 := by
  funext i
  obtain ⟨e, rfl⟩ : ∃ e : Fin 500000, i = ix1 e := ⟨i 0, eq_ix1 i⟩
  rw [val_main_v10_apply, val_main_v9_apply, val_main_v8_apply, val_main_v5_apply, col_apply]
  refine congrArg x2 (funext fun a => Fin.ext ?_)
  match a with
  | ⟨0, _⟩ => exact Nat.mod_eq_of_lt e.isLt
  | ⟨1, _⟩ => rfl

/-- Row 1 of the transposed table, flattened, is column 1. -/
theorem row1_eq_col (x2 : (⟨S500000x4, .i32⟩ : BufTy).Contents (Elt Ideal)) :
    val_main_v19 (F := Ideal) x2 = col x2 1 := by
  funext i
  obtain ⟨e, rfl⟩ : ∃ e : Fin 500000, i = ix1 e := ⟨i 0, eq_ix1 i⟩
  rw [val_main_v19_apply, val_main_v18_apply, val_main_v8_apply, val_main_v5_apply, col_apply]
  refine congrArg x2 (funext fun a => Fin.ext ?_)
  match a with
  | ⟨0, _⟩ => exact Nat.mod_eq_of_lt e.isLt
  | ⟨1, _⟩ => rfl

/-- Row 2 of the transposed table, flattened, is column 2. -/
theorem row2_eq_col (x2 : (⟨S500000x4, .i32⟩ : BufTy).Contents (Elt Ideal)) :
    val_main_v28 (F := Ideal) x2 = col x2 2 := by
  funext i
  obtain ⟨e, rfl⟩ : ∃ e : Fin 500000, i = ix1 e := ⟨i 0, eq_ix1 i⟩
  rw [val_main_v28_apply, val_main_v27_apply, val_main_v8_apply, val_main_v5_apply, col_apply]
  refine congrArg x2 (funext fun a => Fin.ext ?_)
  match a with
  | ⟨0, _⟩ => exact Nat.mod_eq_of_lt e.isLt
  | ⟨1, _⟩ => rfl

/-- The wrap `if v < 0 then v + 4096 else v` applied to an index column in range gives the column back: its entries
    are not negative. -/
theorem wrap_col {x2 : (⟨S500000x4, .i32⟩ : BufTy).Contents (Elt Ideal)} (h : InRange x2) (k : Fin 4) (hk : k.val < 3) :
    select (cmpi .slt (col x2 k) (broadcastInDim S500000 ![] bcast_S_S500000 (constantI S_ 32 0#32)))
        (addi (col x2 k) (broadcastInDim S500000 ![] bcast_S_S500000 (constantI S_ 32 4096#32))) (col x2 k) = col x2 k :=
  wrap_of_nonneg (col x2 k) bcast_S_S500000 (fun i => (h.col k hk i).1)

/-- The index vector the reference hands its first gather is column 0. -/
theorem ref_idx0 (x2 : (⟨S500000x4, .i32⟩ : BufTy).Contents (Elt Ideal)) (h : InRange x2) :
    val_main_v15 (F := Ideal) x2 = col x2 0 := by
  unfold val_main_v15 val_main_v12 val_main_v14 val_main_v11 val_main_v13 val_main_c val_main_c_0
  rw [row0_eq_col]
  exact wrap_col h 0 (by decide)

/-- The index vector the reference hands its second gather is column 1. -/
theorem ref_idx1 (x2 : (⟨S500000x4, .i32⟩ : BufTy).Contents (Elt Ideal)) (h : InRange x2) :
    val_main_v24 (F := Ideal) x2 = col x2 1 := by
  unfold val_main_v24 val_main_v21 val_main_v23 val_main_v20 val_main_v22 val_main_c_1 val_main_c_2
  rw [row1_eq_col]
  exact wrap_col h 1 (by decide)

/-- The index vector the reference hands its third gather is column 2. -/
theorem ref_idx2 (x2 : (⟨S500000x4, .i32⟩ : BufTy).Contents (Elt Ideal)) (h : InRange x2) :
    val_main_v33 (F := Ideal) x2 = col x2 2 := by
  unfold val_main_v33 val_main_v30 val_main_v32 val_main_v29 val_main_v31 val_main_c_3 val_main_c_4
  rw [row2_eq_col]
  exact wrap_col h 2 (by decide)

end Reference

end Cert.EdgeIndex

end
-- ==== Proof.Bridge.lean ====
/-
  The two programs compute the same scores and the same labels.

  When the three index columns are in range, the index vector each program hands a gather is the plain column of
  the edge table (Proof/KernelIndex.lean for the program that clips first, Proof/IndexRange.lean for the one that
  only wraps), so the three gathered arrays are the same in both. The transposed weight matrices and the bias
  vectors are the same terms. Hence the kernel program's score column (Proof/KernelRun.lean) is the reference's
  result stage (Proof/RefScore.lean); and both label columns are column 3 of the edge table.
-/
import proofs.«426207_j77051713290672_3_alg».proof.Proof.RegionArrays
import proofs.«426207_j77051713290672_3_alg».proof.Proof.RefScore
import proofs.«426207_j77051713290672_3_alg».proof.Proof.IndexRange
import proofs.«426207_j77051713290672_3_alg».proof.Proof.KernelIndex

noncomputable section

namespace Cert.Bridge

open Idealize.ShloMosaic Idealize.ShloMosaic.ValueIdx Cert.EdgeIndex Cert.EdgeScore
open Cert.KernelIdeal.KernelIndex Cert.KernelIdeal.RegionArrays

/-- In range, the first gathered array is the same in both programs. -/
theorem gather0_eq (x0 : FVec Ideal Cert.KernelIdeal.S4096x128 .f32) (x2 : IVec Cert.KernelIdeal.S500000x4 32) (hr : InRange x2) :
    gathered x0 x2 0 Cert.KernelIdeal.Gen.slices_S500000x3_S500000x1_0_0 = Cert.ReferenceIdeal.Read.val_main_v17 (F := Ideal) x0 x2 := by
  unfold gathered Cert.ReferenceIdeal.Read.val_main_v17 Cert.ReferenceIdeal.Read.val_main_v16
  rw [gatherIdx_eq_col x2 hr 0 _ 0 rfl (by decide), ref_idx0 x2 hr]
  rfl

/-- In range, the second gathered array is the same in both programs. -/
theorem gather1_eq (x0 : FVec Ideal Cert.KernelIdeal.S4096x128 .f32) (x2 : IVec Cert.KernelIdeal.S500000x4 32) (hr : InRange x2) :
    gathered x0 x2 1 Cert.KernelIdeal.Gen.slices_S500000x3_S500000x1_0_1 = Cert.ReferenceIdeal.Read.val_main_v26 (F := Ideal) x0 x2 := by
  unfold gathered Cert.ReferenceIdeal.Read.val_main_v26 Cert.ReferenceIdeal.Read.val_main_v25
  rw [gatherIdx_eq_col x2 hr 1 _ 1 rfl (by decide), ref_idx1 x2 hr]
  rfl

/-- In range, the third gathered array is the same in both programs. -/
theorem gather2_eq (x0 : FVec Ideal Cert.KernelIdeal.S4096x128 .f32) (x2 : IVec Cert.KernelIdeal.S500000x4 32) (hr : InRange x2) :
    gathered x0 x2 2 Cert.KernelIdeal.Gen.slices_S500000x3_S500000x1_0_2 = Cert.ReferenceIdeal.Read.val_main_v35 (F := Ideal) x0 x2 := by
  unfold gathered Cert.ReferenceIdeal.Read.val_main_v35 Cert.ReferenceIdeal.Read.val_main_v34
  rw [gatherIdx_eq_col x2 hr 2 _ 2 rfl (by decide), ref_idx2 x2 hr]
  rfl

/-- In range, the kernel program's score column is the reference's result. -/
theorem scores_eq_ref (x0 : FVec Ideal Cert.KernelIdeal.S4096x128 .f32) (x2 : IVec Cert.KernelIdeal.S500000x4 32)
    (x5 : FVec Ideal Cert.KernelIdeal.S32x128 .f32) (x6 : FVec Ideal Cert.KernelIdeal.S32 .f32) (x7 : FVec Ideal Cert.KernelIdeal.S32x32 .f32)
    (x8 : FVec Ideal Cert.KernelIdeal.S32 .f32) (x9 : FVec Ideal Cert.KernelIdeal.S32x32 .f32) (x10 : FVec Ideal Cert.KernelIdeal.S32 .f32)
    (x11 : FVec Ideal Cert.KernelIdeal.S1x32 .f32) (x12 : FVec Ideal Cert.KernelIdeal.S1 .f32) (hr : InRange x2) :
    scores (gathered x0 x2 0 Cert.KernelIdeal.Gen.slices_S500000x3_S500000x1_0_0)
        (gathered x0 x2 1 Cert.KernelIdeal.Gen.slices_S500000x3_S500000x1_0_1)
        (gathered x0 x2 2 Cert.KernelIdeal.Gen.slices_S500000x3_S500000x1_0_2)
        (transpose Cert.KernelIdeal.S128x32 [1, 0] x5 Cert.KernelIdeal.Gen.transposes_S32x128_S128x32_1_0) (fun j => x6 (ix1 j))
        (transpose Cert.KernelIdeal.S32x32 [1, 0] x7 Cert.KernelIdeal.Gen.transposes_S32x32_S32x32_1_0) (fun j => x8 (ix1 j))
        (transpose Cert.KernelIdeal.S32x32 [1, 0] x9 Cert.KernelIdeal.Gen.transposes_S32x32_S32x32_1_0) (fun j => x10 (ix1 j))
        (transpose Cert.KernelIdeal.S32x1 [1, 0] x11 Cert.KernelIdeal.Gen.transposes_S1x32_S32x1_1_0) (fun j => x12 (ix1 j))
      = Cert.ReferenceIdeal.Read.val_main_v66 (F := Ideal) x0 x2 x5 x6 x7 x8 x9 x10 x11 x12 := by
  rw [Cert.ReferenceIdeal.RefScore.result_eq, gather0_eq x0 x2 hr, gather1_eq x0 x2 hr, gather2_eq x0 x2 hr]
  rfl

/-- The two label columns are the same. -/
theorem label_eq_ref (x2 : IVec Cert.KernelIdeal.S500000x4 32) :
    shapeCast Cert.KernelIdeal.S500000 (extractStridedSlice Cert.KernelIdeal.S500000x1 ![0, 3] x2 Cert.KernelIdeal.Gen.slices_S500000x4_S500000x1_0_3) Cert.KernelIdeal.Gen.shapeCasts_S500000x1_S500000
      = Cert.ReferenceIdeal.Read.val_main_v7 (F := Ideal) x2 :=
  (label_eq_col x2).trans (refLabel_eq_col x2).symm

end Cert.Bridge

end
-- ==== Proof.lean ====
/-
  Edge scores by a fused four-layer perceptron, against the plain reference.

  Both programs take a table of 4096 feature rows of width 128, an integer edge table `[500000, 4]` whose first
  three columns are row numbers and whose fourth is a label, and the weights and biases of a perceptron
  128 → 32 → 32 → 32 → 1. For every edge they gather the three rows, multiply them entry by entry, run the
  perceptron with `max · 0` after each hidden layer and the logistic function at the end, and return the column of
  scores together with the label column. (The reference also computes a projection of a second table that nothing
  reads; it does not enter a result.)

  They differ in three ways. The kernel program clips the row numbers into `[0, 4095]` before it gathers, where the
  reference only wraps negative ones, Python-style: under the precondition that the three index columns are in
  range, `0 ≤ · < 4096`, both hand the plain column to the gather (Proof/IndexOps.lean, Proof/KernelIndex.lean,
  Proof/IndexRange.lean; the precondition is decoded in the last). The kernel program pads the gathered arrays to
  123 blocks of 4096 rows, computes the perceptron block by block with the products' operands narrowed, and cuts
  the padding off again: over the extended reals the narrowing is the identity and a product is the plain sum, so
  each block row holds the score of its edge (Proof/BlockScore.lean, Proof/PaddedScores.lean, Proof/HostSide.lean,
  Proof/KernelRun.lean). And the kernel's last step is the logistic function where the reference writes
  `1 / (1 + exp (-x))`: these are one function by definition (Proof/RefScore.lean reads the reference so).
  Proof/Bridge.lean joins the two sides. No step needs the inputs to be finite.
-/
import proofs.«426207_j77051713290672_3_alg».proof.Defs
import proofs.«426207_j77051713290672_3_alg».proof.Proof.Gen.Kernel
import proofs.«426207_j77051713290672_3_alg».proof.Proof.Gen.Kernel.Skeleton
import proofs.«426207_j77051713290672_3_alg».proof.Proof.Gen.Kernel.Launch
import proofs.«426207_j77051713290672_3_alg».proof.Proof.Gen.Kernel.Points
import proofs.«426207_j77051713290672_3_alg».proof.Proof.Gen.Kernel.Frame
import proofs.«426207_j77051713290672_3_alg».proof.Proof.Gen.KernelIdeal
import proofs.«426207_j77051713290672_3_alg».proof.Proof.Gen.KernelIdeal.Skeleton
import proofs.«426207_j77051713290672_3_alg».proof.Proof.Gen.KernelIdeal.Launch
import proofs.«426207_j77051713290672_3_alg».proof.Proof.Gen.KernelIdeal.Points
import proofs.«426207_j77051713290672_3_alg».proof.Proof.Gen.KernelIdeal.Frame
import proofs.«426207_j77051713290672_3_alg».proof.Proof.Gen.ReferenceIdeal
import proofs.«426207_j77051713290672_3_alg».proof.Proof.Gen.ReferenceIdeal.Run
import proofs.«426207_j77051713290672_3_alg».proof.Proof.Gen.ReferenceIdeal.Read
import proofs.«426207_j77051713290672_3_alg».proof.Proof.Gen.Pre_finite_inputs
import proofs.«426207_j77051713290672_3_alg».proof.Proof.KernelRun
import proofs.«426207_j77051713290672_3_alg».proof.Proof.Bridge
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments alone: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments, with the index columns in range, both programs end with the same
    score column and the same label column. -/
theorem algebraic : Cert.algebraic_KernelIdeal_ReferenceIdeal := by
  intro m ρ m' ρ' hpre hagree
  have hr : ∀ c : Dev Cert.KernelIdeal.nD, Cert.EdgeIndex.InRange (m ((c.tc : Thread Cert.KernelIdeal.nD Cert.KernelIdeal.τ).loc Cert.KernelIdeal.main_arg2)) :=
    fun c => Cert.EdgeIndex.inRange_of_pre _ _ _ _ _ _ _ _ _ _ _ _ _ (hpre c)
  refine ⟨fun c => Cert.KernelIdeal.KernelRun.result m c, fun c => Cert.KernelIdeal.KernelRun.label m c, Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12⟩ := hagree c
    rw [Cert.ReferenceIdeal.Read.val_main_v66_eq, a0, a2, a5, a6, a7, a8, a9, a10, a11, a12]
    exact (Cert.Bridge.scores_eq_ref _ _ _ _ _ _ _ _ _ _ (hr c)).symm
  · obtain ⟨a0, a1, a2, a3, a4, a5, a6, a7, a8, a9, a10, a11, a12⟩ := hagree c
    rw [Cert.ReferenceIdeal.Read.val_main_v7_eq, a2]
    exact (Cert.Bridge.label_eq_ref _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
